-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x150x1024 : Shape := ⟨3, ![256, 150, 1024]⟩
abbrev S1x40x1024 : Shape := ⟨3, ![1, 40, 1024]⟩
abbrev S_ : Shape := ⟨0, ![]⟩

class Facts : Prop where
  bcast_S_S256x150x1024 : S_.BroadcastsInDim S256x150x1024 (![] : Fin 0 → Fin S256x150x1024.rank)
  reducesTo_S256x150x1024_S_d0_1_2 : S256x150x1024.ReducesTo [0, 1, 2] S_
  h_S_ : 0 < S_.numel
  bcast_S_S1x40x1024 : S_.BroadcastsInDim S1x40x1024 (![] : Fin 0 → Fin S1x40x1024.rank)
  reducesTo_S1x40x1024_S_d0_1_2 : S1x40x1024.ReducesTo [0, 1, 2] S_

variable [Facts]

def fn {F : FTy → Type} [FloatOps F] (main_arg0 : FVec F S256x150x1024 .f32) (main_arg1 : FVec F S1x40x1024 .f32) : IVec S_ 1 :=
  let main_v0 : FVec F S256x150x1024 .f32 := Host.absf main_arg0
  let main_cst : FVec F S_ .f32 := constant S_ .f32 0x7F800000#32
  let main_v1 : FVec F S256x150x1024 .f32 := broadcastInDim S256x150x1024 ![] bcast_S_S256x150x1024 main_cst
  let main_v2 : IVec S256x150x1024 1 := cmpf .olt main_v0 main_v1
  let main_c : IVec S_ 1 := constantI S_ 1 1#1
  let main_v3 : IVec S_ 1 := (fun x v => Host.reduce IntOp.andi x v reducesTo_S256x150x1024_S_d0_1_2 h_S_) main_v2 main_c
  let main_v4 : FVec F S1x40x1024 .f32 := Host.absf main_arg1
  let main_cst_0 : FVec F S_ .f32 := constant S_ .f32 0x7F800000#32
  let main_v5 : FVec F S1x40x1024 .f32 := broadcastInDim S1x40x1024 ![] bcast_S_S1x40x1024 main_cst_0
  let main_v6 : IVec S1x40x1024 1 := cmpf .olt main_v4 main_v5
  let main_c_1 : IVec S_ 1 := constantI S_ 1 1#1
  let main_v7 : IVec S_ 1 := (fun x v => Host.reduce IntOp.andi x v reducesTo_S1x40x1024_S_d0_1_2 h_S_) main_v6 main_c_1
  let main_v8 : IVec S_ 1 := andi main_v3 main_v7
  main_v8
-- ==== Kernel.lean ====
abbrev S256x150x1024 : Shape := ⟨3, ![256, 150, 1024]⟩
abbrev S1x40x1024 : Shape := ⟨3, ![1, 40, 1024]⟩
abbrev S150x21 : Shape := ⟨2, ![150, 21]⟩
abbrev S256x21 : Shape := ⟨2, ![256, 21]⟩
abbrev S8x150x1024 : Shape := ⟨3, ![8, 150, 1024]⟩
abbrev S8x21 : Shape := ⟨2, ![8, 21]⟩
abbrev S8x40x1024 : Shape := ⟨3, ![8, 40, 1024]⟩
abbrev S8x150x40 : Shape := ⟨3, ![8, 150, 40]⟩
abbrev S8x150 : Shape := ⟨2, ![8, 150]⟩
abbrev S8x40 : Shape := ⟨2, ![8, 40]⟩
abbrev S8x150x1 : Shape := ⟨3, ![8, 150, 1]⟩
abbrev S8x1x40 : Shape := ⟨3, ![8, 1, 40]⟩

abbrev nBuf : Space → Nat
  | .hbm => 4
  | .vmem => 6
  | .smem => 0
  | _ => 0

abbrev bufTy : (tb : Table) → Fin (tcTables nBuf tb) → BufTy
  | .hbm, ⟨0, _⟩ => ⟨S256x150x1024, .f32⟩
  | .hbm, ⟨1, _⟩ => ⟨S1x40x1024, .f32⟩
  | .hbm, ⟨2, _⟩ => ⟨S150x21, .f32⟩
  | .hbm, ⟨3, _⟩ => ⟨S256x21, .f32⟩
  | .local _ .vmem, ⟨0, _⟩ => ⟨S8x150x1024, .f32⟩
  | .local _ .vmem, ⟨1, _⟩ => ⟨S8x150x1024, .f32⟩
  | .local _ .vmem, ⟨2, _⟩ => ⟨S1x40x1024, .f32⟩
  | .local _ .vmem, ⟨3, _⟩ => ⟨S150x21, .f32⟩
  | .local _ .vmem, ⟨4, _⟩ => ⟨S8x21, .f32⟩
  | .local _ .vmem, ⟨5, _⟩ => ⟨S8x21, .f32⟩
  | _, _ => ⟨S256x150x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x150x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S150x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x150x1024_S8x150x1024_0_0_0 : ∀ a, (![0, 0, 0] : Fin 3 → Nat) a + S8x150x1024.size a ≤ S8x150x1024.size a
  h_S8x150x1024 : 0 < S8x150x1024.numel
  inb_S1x40x1024_S1x40x1024_0_0_0 : ∀ a, (![0, 0, 0] : Fin 3 → Nat) a + S1x40x1024.size a ≤ S1x40x1024.size a
  h_S1x40x1024 : 0 < S1x40x1024.numel
  shapeCasts_S1x40x1024_S1x40x1024 : S1x40x1024.ShapeCasts S1x40x1024
  broadcasts_S1x40x1024_S8x40x1024 : S1x40x1024.Broadcasts S8x40x1024
  bitsLt_bf16_f32 : FTy.bits .bf16 < FTy.bits .f32
  reduces_S8x150x1024_S8x150 : S8x150x1024.Reduces [2] S8x150
  reduces_S8x40x1024_S8x40 : S8x40x1024.Reduces [2] S8x40
  shapeCasts_S8x150_S8x150x1 : S8x150.ShapeCasts S8x150x1
  shapeCasts_S8x40_S8x1x40 : S8x40.ShapeCasts S8x1x40
  broadcasts_S8x150x1_S8x150x40 : S8x150x1.Broadcasts S8x150x40
  broadcasts_S8x1x40_S8x150x40 : S8x1x40.Broadcasts S8x150x40
  reduces_S8x150x40_S8x150 : S8x150x40.Reduces [2] S8x150
  inb_S150x21_S150x21_0_0 : ∀ a, (![0, 0] : Fin 2 → Nat) a + S150x21.size a ≤ S150x21.size a
  h_S150x21 : 0 < S150x21.numel
  inb_S8x21_S8x21_0_0 : ∀ a, (![0, 0] : Fin 2 → Nat) a + S8x21.size a ≤ S8x21.size a
  h_S8x21 : 0 < S8x21.numel
  dot_S8x150x1024_S8x40x1024_S8x150x40_2_2_1_1_0_0_wf : DotDims.WF S8x150x1024 S8x40x1024 S8x150x40 [2] [2] [1] [1] [0] [0]
  dot_S8x150x40_S8x40x1024_S8x150x1024_2_1_1_2_0_0_wf : DotDims.WF S8x150x40 S8x40x1024 S8x150x1024 [2] [1] [1] [2] [0] [0]
  dot_S8x150_S150x21_S8x21_1_0_0_1_n_n_wf : DotDims.WF S8x150 S150x21 S8x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x150x1024.size a ≤ S256x150x1024.size a
  hwx0_0 : ∀ i : grid0.Coords, EltTy.bits .f32 = 32 ∨ (Rect.block (s := S256x150x1024) S8x150x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x40x1024.size a ≤ S1x40x1024.size a
  hwx0_1 : ∀ i : grid0.Coords, EltTy.bits .f32 = 32 ∨ (Rect.block (s := S1x40x1024) S1x40x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S150x21.size a ≤ S150x21.size a
  hwx0_2 : ∀ i : grid0.Coords, EltTy.bits .f32 = 32 ∨ (Rect.block (s := S150x21) S150x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x21.size a ≤ S256x21.size a
  hwx0_3 : ∀ i : grid0.Coords, EltTy.bits .f32 = 32 ∨ (Rect.block (s := S256x21) S8x21.size (cc0_transform_3 i) (hinb0_3 i)).WholeWords (EltTy.packing .f32)

variable [Facts₀]

def dot_S8x150x1024_S8x40x1024_S8x150x40_2_2_1_1_0_0 : DotDims S8x150x1024 S8x40x1024 S8x150x40 where
  lhsContracting := [2]
  rhsContracting := [2]
  lhsNonContracting := [1]
  rhsNonContracting := [1]
  lhsBatch := [0]
  rhsBatch := [0]
  wf := dot_S8x150x1024_S8x40x1024_S8x150x40_2_2_1_1_0_0_wf
def dot_S8x150x40_S8x40x1024_S8x150x1024_2_1_1_2_0_0 : DotDims S8x150x40 S8x40x1024 S8x150x1024 where
  lhsContracting := [2]
  rhsContracting := [1]
  lhsNonContracting := [1]
  rhsNonContracting := [2]
  lhsBatch := [0]
  rhsBatch := [0]
  wf := dot_S8x150x40_S8x40x1024_S8x150x1024_2_1_1_2_0_0_wf
def dot_S8x150_S150x21_S8x21_1_0_0_1_n_n : DotDims S8x150 S150x21 S8x21 where
  lhsContracting := [1]
  rhsContracting := [0]
  lhsNonContracting := [0]
  rhsNonContracting := [1]
  lhsBatch := []
  rhsBatch := []
  wf := dot_S8x150_S150x21_S8x21_1_0_0_1_n_n_wf

abbrev win0_0 : Pipeline.Window sig grid0 :=
  Pipeline.Window.ofSpec (Memref.whole main_arg0) S8x150x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x40x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst) S150x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x150x1024 : Shape := ⟨3, ![256, 150, 1024]⟩
abbrev S1x40x1024 : Shape := ⟨3, ![1, 40, 1024]⟩
abbrev S256x40x1024 : Shape := ⟨3, ![256, 40, 1024]⟩
abbrev S256x150x40 : Shape := ⟨3, ![256, 150, 40]⟩
abbrev S_ : Shape := ⟨0, ![]⟩
abbrev S256x150 : Shape := ⟨2, ![256, 150]⟩
abbrev S256x40 : Shape := ⟨2, ![256, 40]⟩
abbrev S256x150x1 : Shape := ⟨3, ![256, 150, 1]⟩
abbrev S256x1x40 : Shape := ⟨3, ![256, 1, 40]⟩
abbrev S256x25 : Shape := ⟨2, ![256, 25]⟩
abbrev S256 : Shape := ⟨1, ![256]⟩
abbrev S256x1 : Shape := ⟨2, ![256, 1]⟩
abbrev S256x50 : Shape := ⟨2, ![256, 50]⟩
abbrev S256x75 : Shape := ⟨2, ![256, 75]⟩
abbrev S256x100 : Shape := ⟨2, ![256, 100]⟩
abbrev S256x125 : Shape := ⟨2, ![256, 125]⟩
abbrev S256x16 : Shape := ⟨2, ![256, 16]⟩
abbrev S256x5 : Shape := ⟨2, ![256, 5]⟩
abbrev S256x21 : Shape := ⟨2, ![256, 21]⟩

abbrev nBuf : Space → Nat
  | .hbm => 222
  | .vmem => 0
  | .smem => 0
  | _ => 0

abbrev hbmTy0_0 (i : Nat) : BufTy := match i % 128 with
  | 0 => ⟨S256x150x1024, .f32⟩
  | 1 => ⟨S1x40x1024, .f32⟩
  | 2 => ⟨S256x40x1024, .f32⟩
  | 3 => ⟨S256x150x40, .f32⟩
  | 4 => ⟨S256x150x1024, .f32⟩
  | 5 => ⟨S_, .f32⟩
  | 6 => ⟨S256x150, .f32⟩
  | 7 => ⟨S256x150, .f32⟩
  | 8 => ⟨S256x40x1024, .f32⟩
  | 9 => ⟨S_, .f32⟩
  | 10 => ⟨S256x40, .f32⟩
  | 11 => ⟨S256x40, .f32⟩
  | 12 => ⟨S256x150x1, .f32⟩
  | 13 => ⟨S256x1x40, .f32⟩
  | 14 => ⟨S256x150x40, .f32⟩
  | 15 => ⟨S256x150x40, .f32⟩
  | 16 => ⟨S256x150x40, .f32⟩
  | 17 => ⟨S_, .f32⟩
  | 18 => ⟨S256x150x40, .f32⟩
  | 19 => ⟨S256x150x40, .f32⟩
  | 20 => ⟨S256x150x40, .f32⟩
  | 21 => ⟨S_, .f32⟩
  | 22 => ⟨S256x150, .f32⟩
  | 23 => ⟨S_, .f32⟩
  | 24 => ⟨S256x150, .f32⟩
  | 25 => ⟨S256x150, .f32⟩
  | 26 => ⟨S256x150x1, .f32⟩
  | 27 => ⟨S256x150x40, .f32⟩
  | 28 => ⟨S256x150x40, .f32⟩
  | 29 => ⟨S256x150x40, .f32⟩
  | 30 => ⟨S_, .f32⟩
  | 31 => ⟨S256x150, .f32⟩
  | 32 => ⟨S256x150x1, .f32⟩
  | 33 => ⟨S256x150x40, .f32⟩
  | 34 => ⟨S256x150x40, .f32⟩
  | 35 => ⟨S256x150x1024, .f32⟩
  | 36 => ⟨S256x150x1024, .f32⟩
  | 37 => ⟨S_, .f32⟩
  | 38 => ⟨S256x150, .f32⟩
  | 39 => ⟨S256x150x1024, .f32⟩
  | 40 => ⟨S_, .f32⟩
  | 41 => ⟨S256x150, .f32⟩
  | 42 => ⟨S256x150, .f32⟩
  | 43 => ⟨S256x150, .f32⟩
  | 44 => ⟨S_, .f32⟩
  | 45 => ⟨S256x150, .f32⟩
  | 46 => ⟨S256x150, .f32⟩
  | 47 => ⟨S256x150, .f32⟩
  | 48 => ⟨S_, .f32⟩
  | 49 => ⟨S256x150, .f32⟩
  | 50 => ⟨S256x150, .f32⟩
  | 51 => ⟨S256x150, .f32⟩
  | 52 => ⟨S256x25, .f32⟩
  | 53 => ⟨S_, .f32⟩
  | 54 => ⟨S256, .f32⟩
  | 55 => ⟨S256x1, .f32⟩
  | 56 => ⟨S256x1, .f32⟩
  | 57 => ⟨S_, .f32⟩
  | 58 => ⟨S256x1, .f32⟩
  | 59 => ⟨S256x1, .f32⟩
  | 60 => ⟨S256x50, .f32⟩
  | 61 => ⟨S_, .f32⟩
  | 62 => ⟨S256, .f32⟩
  | 63 => ⟨S256x1, .f32⟩
  | 64 => ⟨S256x1, .f32⟩
  | 65 => ⟨S_, .f32⟩
  | 66 => ⟨S256x1, .f32⟩
  | 67 => ⟨S256x1, .f32⟩
  | 68 => ⟨S256x75, .f32⟩
  | 69 => ⟨S_, .f32⟩
  | 70 => ⟨S256, .f32⟩
  | 71 => ⟨S256x1, .f32⟩
  | 72 => ⟨S256x1, .f32⟩
  | 73 => ⟨S_, .f32⟩
  | 74 => ⟨S256x1, .f32⟩
  | 75 => ⟨S256x1, .f32⟩
  | 76 => ⟨S256x100, .f32⟩
  | 77 => ⟨S_, .f32⟩
  | 78 => ⟨S256, .f32⟩
  | 79 => ⟨S256x1, .f32⟩
  | 80 => ⟨S256x1, .f32⟩
  | 81 => ⟨S_, .f32⟩
  | 82 => ⟨S256x1, .f32⟩
  | 83 => ⟨S256x1, .f32⟩
  | 84 => ⟨S256x125, .f32⟩
  | 85 => ⟨S_, .f32⟩
  | 86 => ⟨S256, .f32⟩
  | 87 => ⟨S256x1, .f32⟩
  | 88 => ⟨S256x1, .f32⟩
  | 89 => ⟨S_, .f32⟩
  | 90 => ⟨S256x1, .f32⟩
  | 91 => ⟨S256x1, .f32⟩
  | 92 => ⟨S_, .f32⟩
  | 93 => ⟨S256, .f32⟩
  | 94 => ⟨S256x1, .f32⟩
  | 95 => ⟨S256x1, .f32⟩
  | 96 => ⟨S_, .f32⟩
  | 97 => ⟨S256x1, .f32⟩
  | 98 => ⟨S256x1, .f32⟩
  | 99 => ⟨S256x25, .f32⟩
  | 100 => ⟨S_, .f32⟩
  | 101 => ⟨S256, .f32⟩
  | 102 => ⟨S256x1, .f32⟩
  | 103 => ⟨S256x1, .f32⟩
  | 104 => ⟨S_, .f32⟩
  | 105 => ⟨S256x1, .f32⟩
  | 106 => ⟨S256x1, .f32⟩
  | 107 => ⟨S256x50, .f32⟩
  | 108 => ⟨S_, .f32⟩
  | 109 => ⟨S256, .f32⟩
  | 110 => ⟨S256x1, .f32⟩
  | 111 => ⟨S256x1, .f32⟩
  | 112 => ⟨S_, .f32⟩
  | 113 => ⟨S256x1, .f32⟩
  | 114 => ⟨S256x1, .f32⟩
  | 115 => ⟨S256x75, .f32⟩
  | 116 => ⟨S_, .f32⟩
  | 117 => ⟨S256, .f32⟩
  | 118 => ⟨S256x1, .f32⟩
  | 119 => ⟨S256x1, .f32⟩
  | 120 => ⟨S_, .f32⟩
  | 121 => ⟨S256x1, .f32⟩
  | 122 => ⟨S256x1, .f32⟩
  | 123 => ⟨S256x100, .f32⟩
  | 124 => ⟨S_, .f32⟩
  | 125 => ⟨S256, .f32⟩
  | 126 => ⟨S256x1, .f32⟩
  | 127 => ⟨S256x1, .f32⟩
  | _ => ⟨S256x150x1024, .f32⟩

abbrev hbmTy0_1 (i : Nat) : BufTy := match i % 128 with
  | 0 => ⟨S_, .f32⟩
  | 1 => ⟨S256x1, .f32⟩
  | 2 => ⟨S256x1, .f32⟩
  | 3 => ⟨S256x125, .f32⟩
  | 4 => ⟨S_, .f32⟩
  | 5 => ⟨S256, .f32⟩
  | 6 => ⟨S256x1, .f32⟩
  | 7 => ⟨S256x1, .f32⟩
  | 8 => ⟨S_, .f32⟩
  | 9 => ⟨S256x1, .f32⟩
  | 10 => ⟨S256x1, .f32⟩
  | 11 => ⟨S256x25, .f32⟩
  | 12 => ⟨S_, .f32⟩
  | 13 => ⟨S256, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x50, .f32⟩
  | 20 => ⟨S_, .f32⟩
  | 21 => ⟨S256, .f32⟩
  | 22 => ⟨S256x1, .f32⟩
  | 23 => ⟨S256x1, .f32⟩
  | 24 => ⟨S_, .f32⟩
  | 25 => ⟨S256x1, .f32⟩
  | 26 => ⟨S256x1, .f32⟩
  | 27 => ⟨S256x75, .f32⟩
  | 28 => ⟨S_, .f32⟩
  | 29 => ⟨S256, .f32⟩
  | 30 => ⟨S256x1, .f32⟩
  | 31 => ⟨S256x1, .f32⟩
  | 32 => ⟨S_, .f32⟩
  | 33 => ⟨S256x1, .f32⟩
  | 34 => ⟨S256x1, .f32⟩
  | 35 => ⟨S256x100, .f32⟩
  | 36 => ⟨S_, .f32⟩
  | 37 => ⟨S256, .f32⟩
  | 38 => ⟨S256x1, .f32⟩
  | 39 => ⟨S256x1, .f32⟩
  | 40 => ⟨S_, .f32⟩
  | 41 => ⟨S256x1, .f32⟩
  | 42 => ⟨S256x1, .f32⟩
  | 43 => ⟨S256x25, .f32⟩
  | 44 => ⟨S_, .f32⟩
  | 45 => ⟨S256, .f32⟩
  | 46 => ⟨S256x1, .f32⟩
  | 47 => ⟨S256x1, .f32⟩
  | 48 => ⟨S_, .f32⟩
  | 49 => ⟨S256x1, .f32⟩
  | 50 => ⟨S256x1, .f32⟩
  | 51 => ⟨S256x50, .f32⟩
  | 52 => ⟨S_, .f32⟩
  | 53 => ⟨S256, .f32⟩
  | 54 => ⟨S256x1, .f32⟩
  | 55 => ⟨S256x1, .f32⟩
  | 56 => ⟨S_, .f32⟩
  | 57 => ⟨S256x1, .f32⟩
  | 58 => ⟨S256x1, .f32⟩
  | 59 => ⟨S256x75, .f32⟩
  | 60 => ⟨S_, .f32⟩
  | 61 => ⟨S256, .f32⟩
  | 62 => ⟨S256x1, .f32⟩
  | 63 => ⟨S256x1, .f32⟩
  | 64 => ⟨S_, .f32⟩
  | 65 => ⟨S256x1, .f32⟩
  | 66 => ⟨S256x1, .f32⟩
  | 67 => ⟨S256x25, .f32⟩
  | 68 => ⟨S_, .f32⟩
  | 69 => ⟨S256, .f32⟩
  | 70 => ⟨S256x1, .f32⟩
  | 71 => ⟨S256x1, .f32⟩
  | 72 => ⟨S_, .f32⟩
  | 73 => ⟨S256x1, .f32⟩
  | 74 => ⟨S256x1, .f32⟩
  | 75 => ⟨S256x50, .f32⟩
  | 76 => ⟨S_, .f32⟩
  | 77 => ⟨S256, .f32⟩
  | 78 => ⟨S256x1, .f32⟩
  | 79 => ⟨S256x1, .f32⟩
  | 80 => ⟨S_, .f32⟩
  | 81 => ⟨S256x1, .f32⟩
  | 82 => ⟨S256x1, .f32⟩
  | 83 => ⟨S256x25, .f32⟩
  | 84 => ⟨S_, .f32⟩
  | 85 => ⟨S256, .f32⟩
  | 86 => ⟨S256x1, .f32⟩
  | 87 => ⟨S256x1, .f32⟩
  | 88 => ⟨S_, .f32⟩
  | 89 => ⟨S256x1, .f32⟩
  | 90 => ⟨S256x1, .f32⟩
  | 91 => ⟨S256x16, .f32⟩
  | 92 => ⟨S256x5, .f32⟩
  | 93 => ⟨S256x21, .f32⟩
  | _ => ⟨S256x150x1024, .f32⟩

abbrev hbmTy (i : Nat) : BufTy := match i / 128 with
  | 0 => hbmTy0_0 i
  | 1 => hbmTy0_1 i
  | _ => ⟨S256x150x1024, .f32⟩

abbrev bufTy : (tb : Table) → Fin (tcTables nBuf tb) → BufTy
  | .hbm, ⟨i, _⟩ => hbmTy i
  | _, _ => ⟨S256x150x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_21 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_24 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_25 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_26 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_27 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_28 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_29 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_30 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_31 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_32 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_33 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_34 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_35 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_36 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_37 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_38 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_39 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_40 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_41 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_42 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_43 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_44 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_45 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_46 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_47 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩

abbrev nD : Nat := 1
abbrev τ : Topo := Topo.v7x

variable {F : FTy → Type} [FloatOps F]

class Facts₀ : Prop where
  bcast_S1x40x1024_S256x40x1024_0_1_2 : S1x40x1024.BroadcastsInDim S256x40x1024 (![0, 1, 2] : Fin 3 → Fin S256x40x1024.rank)
  reducesTo_S256x150x1024_S256x150_d2 : S256x150x1024.ReducesTo [2] S256x150
  h_S_ : 0 < S_.numel
  reducesTo_S256x40x1024_S256x40_d2 : S256x40x1024.ReducesTo [2] S256x40
  bcast_S256x150_S256x150x1_0_1 : S256x150.BroadcastsInDim S256x150x1 (![0, 1] : Fin 2 → Fin S256x150x1.rank)
  bcast_S256x40_S256x1x40_0_2 : S256x40.BroadcastsInDim S256x1x40 (![0, 2] : Fin 2 → Fin S256x1x40.rank)
  bcast_S256x150x1_S256x150x40_0_1_2 : S256x150x1.BroadcastsInDim S256x150x40 (![0, 1, 2] : Fin 3 → Fin S256x150x40.rank)
  bcast_S256x1x40_S256x150x40_0_1_2 : S256x1x40.BroadcastsInDim S256x150x40 (![0, 1, 2] : Fin 3 → Fin S256x150x40.rank)
  bcast_S_S256x150x40 : S_.BroadcastsInDim S256x150x40 (![] : Fin 0 → Fin S256x150x40.rank)
  reducesTo_S256x150x40_S256x150_d2 : S256x150x40.ReducesTo [2] S256x150
  bcast_S_S256x150 : S_.BroadcastsInDim S256x150 (![] : Fin 0 → Fin S256x150.rank)
  slices_S256x150_S256x25_0_0 : S256x150.Slices ![0, 0] S256x25
  reducesTo_S256x25_S256_d1 : S256x25.ReducesTo [1] S256
  bcast_S256_S256x1_0 : S256.BroadcastsInDim S256x1 (![0] : Fin 1 → Fin S256x1.rank)
  bcast_S_S256x1 : S_.BroadcastsInDim S256x1 (![] : Fin 0 → Fin S256x1.rank)
  slices_S256x150_S256x50_0_0 : S256x150.Slices ![0, 0] S256x50
  reducesTo_S256x50_S256_d1 : S256x50.ReducesTo [1] S256
  slices_S256x150_S256x75_0_0 : S256x150.Slices ![0, 0] S256x75
  reducesTo_S256x75_S256_d1 : S256x75.ReducesTo [1] S256
  slices_S256x150_S256x100_0_0 : S256x150.Slices ![0, 0] S256x100
  reducesTo_S256x100_S256_d1 : S256x100.ReducesTo [1] S256
  slices_S256x150_S256x125_0_0 : S256x150.Slices ![0, 0] S256x125
  reducesTo_S256x125_S256_d1 : S256x125.ReducesTo [1] S256
  reducesTo_S256x150_S256_d1 : S256x150.ReducesTo [1] S256
  slices_S256x150_S256x25_0_25 : S256x150.Slices ![0, 25] S256x25
  slices_S256x150_S256x50_0_25 : S256x150.Slices ![0, 25] S256x50
  slices_S256x150_S256x75_0_25 : S256x150.Slices ![0, 25] S256x75
  slices_S256x150_S256x100_0_25 : S256x150.Slices ![0, 25] S256x100
  slices_S256x150_S256x125_0_25 : S256x150.Slices ![0, 25] S256x125
  slices_S256x150_S256x25_0_50 : S256x150.Slices ![0, 50] S256x25
  slices_S256x150_S256x50_0_50 : S256x150.Slices ![0, 50] S256x50
  slices_S256x150_S256x75_0_50 : S256x150.Slices ![0, 50] S256x75
  slices_S256x150_S256x100_0_50 : S256x150.Slices ![0, 50] S256x100
  slices_S256x150_S256x25_0_75 : S256x150.Slices ![0, 75] S256x25
  slices_S256x150_S256x50_0_75 : S256x150.Slices ![0, 75] S256x50
  slices_S256x150_S256x75_0_75 : S256x150.Slices ![0, 75] S256x75
  slices_S256x150_S256x25_0_100 : S256x150.Slices ![0, 100] S256x25
  slices_S256x150_S256x50_0_100 : S256x150.Slices ![0, 100] S256x50
  slices_S256x150_S256x25_0_125 : S256x150.Slices ![0, 125] S256x25
  concatenates_S256x1_S256x1_S256x1_S256x1_S256x1_S256x1_S256x1_S256x1_S256x1_S256x1_S256x1_S256x1_S256x1_S256x1_S256x1_S256x1_S256x16_d1 : Shape.Concatenates [S256x1, S256x1, S256x1, S256x1, S256x1, S256x1, S256x1, S256x1, S256x1, S256x1, S256x1, S256x1, S256x1, S256x1, S256x1, S256x1] S256x16 1
  concatenates_S256x1_S256x1_S256x1_S256x1_S256x1_S256x5_d1 : Shape.Concatenates [S256x1, S256x1, S256x1, S256x1, S256x1] S256x5 1
  concatenates_S256x16_S256x5_S256x21_d1 : Shape.Concatenates [S256x16, S256x5] S256x21 1
  dot_S256x150x1024_S256x40x1024_S256x150x40_2_2_1_1_0_0_wf : DotDims.WF S256x150x1024 S256x40x1024 S256x150x40 [2] [2] [1] [1] [0] [0]
  dot_S256x150x40_S256x40x1024_S256x150x1024_2_1_1_2_0_0_wf : DotDims.WF S256x150x40 S256x40x1024 S256x150x1024 [2] [1] [1] [2] [0] [0]

variable [Facts₀]

def dot_S256x150x1024_S256x40x1024_S256x150x40_2_2_1_1_0_0 : DotDims S256x150x1024 S256x40x1024 S256x150x40 where
  lhsContracting := [2]
  rhsContracting := [2]
  lhsNonContracting := [1]
  rhsNonContracting := [1]
  lhsBatch := [0]
  rhsBatch := [0]
  wf := dot_S256x150x1024_S256x40x1024_S256x150x40_2_2_1_1_0_0_wf
def dot_S256x150x40_S256x40x1024_S256x150x1024_2_1_1_2_0_0 : DotDims S256x150x40 S256x40x1024 S256x150x1024 where
  lhsContracting := [2]
  rhsContracting := [1]
  lhsNonContracting := [1]
  rhsNonContracting := [2]
  lhsBatch := [0]
  rhsBatch := [0]
  wf := dot_S256x150x40_S256x40x1024_S256x150x1024_2_1_1_2_0_0_wf

class Facts : Prop extends Facts₀ where

variable [Facts]
-- ==== Proof.Spec.lean ====
/-
  The function both programs compute, stated once over plain coordinate functions on the extended reals.

  For one image (150 regions, each a vector of 1024 reals, `x r`) and one sentence (40 words, `d w`):
    * `score x d r w`  — the cosine of region r and word w, the product of the two norms floored at 1e-6;
    * `attn x d r w`   — the softmax of the scores of region r over the 40 words (shifted by their maximum);
    * `sent x d r`     — the attention-weighted sum of the words for region r, a vector of 1024 reals;
    * `cosr x d r`     — the cosine of region r and that vector, the same floor;
    * `es x d r`       — `exp (6 · cosr)`;
    * `pooled x d s`   — for segment s (one of the 21 runs of consecutive 25-region units), `log (Σ_{r in s} es r) / 6`.
  A segment is the half-open range of regions `segLo s ≤ r < segHi s`; the sum over it is written as a sum over
  all 150 regions of a term that is zero off the segment, so that a sum against a 0/1 mask column and a sum over a
  contiguous slice both rewrite to it.
-/
import Idealize.ShloMosaic.PureOps.Ideal
import Idealize.ShloMosaic.PureOps.Ideal.Laws

noncomputable section

namespace Cert.SegPool

open Idealize.ShloMosaic

/-- The floor under a product of norms: the f32 nearest 1e-6. -/
abbrev eps : EReal := Ideal.ofBits .f32 0x358637BD#32
/-- The pooling temperature: 6. -/
abbrev six : EReal := Ideal.ofBits .f32 0x40C00000#32
/-- The value a running maximum starts from: minus infinity. -/
abbrev ninf : EReal := Ideal.ofBits .f32 0xFF800000#32

/-- The inner product of two vectors of length n. -/
def dotp {n : Nat} (u v : Fin n → EReal) : EReal := ∑ k : Fin n, u k * v k

/-- The Euclidean norm. -/
def nrm {n : Nat} (u : Fin n → EReal) : EReal := Ideal.sqrt (dotp u u)

variable (x : Fin 150 → Fin 1024 → EReal) (d : Fin 40 → Fin 1024 → EReal)

/-- Region r against word w: their inner product over the floored product of their norms. -/
def score (r : Fin 150) (w : Fin 40) : EReal :=
  Ideal.div (dotp (x r) (d w)) (max (nrm (x r) * nrm (d w)) eps)

/-- The largest score of region r over the words (never below minus infinity). -/
def smax (r : Fin 150) : EReal :=
  max ninf ((Finset.univ : Finset (Fin 40)).fold max ninf (score x d r))

/-- The unnormalised softmax weight. -/
def ex (r : Fin 150) (w : Fin 40) : EReal := Ideal.exp (score x d r w - smax x d r)

/-- The softmax weight of word w for region r. -/
def attn (r : Fin 150) (w : Fin 40) : EReal := Ideal.div (ex x d r w) (∑ w' : Fin 40, ex x d r w')

/-- The attended sentence vector of region r. -/
def sent (r : Fin 150) (k : Fin 1024) : EReal := ∑ w : Fin 40, attn x d r w * d w k

/-- Region r against its attended sentence vector. -/
def cosr (r : Fin 150) : EReal :=
  Ideal.div (dotp (x r) (sent x d r)) (max (nrm (x r) * nrm (sent x d r)) eps)

/-- The pooled summand of region r. -/
def es (r : Fin 150) : EReal := Ideal.exp (cosr x d r * six)

/-- First region of segment s: segments are the pairs i ≤ j of six 25-region units, i major. -/
def segLo : Fin 21 → Nat :=
  ![0, 0, 0, 0, 0, 0, 25, 25, 25, 25, 25, 50, 50, 50, 50, 75, 75, 75, 100, 100, 125]
/-- One past the last region of segment s. -/
def segHi : Fin 21 → Nat :=
  ![25, 50, 75, 100, 125, 150, 50, 75, 100, 125, 150, 75, 100, 125, 150, 100, 125, 150, 125, 150, 150]

/-- The log-sum-exp pooling of segment s. -/
def pooled (s : Fin 21) : EReal :=
  Ideal.div (Ideal.log (∑ r : Fin 150, if segLo s ≤ r.val ∧ r.val < segHi s then es x d r else 0)) six

end Cert.SegPool

end
-- ==== Proof.KernelAttend.lean ====
/-
  The kernel body's two inner values, read at an index of one image of the block.

  A block holds 8 images; image p of the block is `fun r k => v0 (ix3 p r k)`, the sentence is the one row-set of
  `v1`.  The body's norm of region r is the Euclidean norm of that region's vector, and its second matrix
  product — softmax weights against the words — is the attended sentence vector of the specification.
-/
import proofs.«111422_j84061099917852_1_alg».proof.Proof.Gen.KernelIdeal.Skeleton
import proofs.«111422_j84061099917852_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.SegPool

/-- Image p of a block of 8, as region-by-coordinate reals. -/
abbrev img (v0 : Vec Ideal S8x150x1024 .f32) (p : Fin 8) : Fin 150 → Fin 1024 → EReal := fun r k => v0 (ix3 p r k)

/-- The sentence, as word-by-coordinate reals. -/
abbrev words (v1 : Vec Ideal S1x40x1024 .f32) : Fin 40 → Fin 1024 → EReal := fun w k => v1 (ix3 0 w k)

namespace Attend

/-- A lane sum of a block of 8 x 150 x 1024, read at image p and region r: the sum over the coordinates. -/
theorem laneSum_img (src : FVec Ideal S8x150x1024 .f32) (p : Fin 8) (r : Fin 150) :
    multiReduction (F := Ideal) .add [2] S8x150 src 0x00000000#32 reduces_S8x150x1024_S8x150 (.inl rfl) rfl (ix2 p r)
      = ∑ k : Fin 1024, src (ix3 p r k) := by
  refine (Ideal.multiReduction_add_single src 0x00000000#32 reduces_S8x150x1024_S8x150 (.inl rfl) rfl (ix2 p r)).trans ?_
  refine Finset.sum_congr rfl fun k _ => ?_
  refine congrArg src ?_
  funext a
  match a with
  | ⟨0, _⟩ => rfl
  | ⟨1, _⟩ => rfl
  | ⟨2, _⟩ => rfl

/-! ### The first matrix product: regions against words, contracted over the 1024 coordinates -/

theorem lhs_num_0 (i : S8x150x40.Idx) (q : dot_S8x150x1024_S8x40x1024_S8x150x40_2_2_1_1_0_0.contr.Idx) :
    (dot_S8x150x1024_S8x40x1024_S8x150x40_2_2_1_1_0_0.lhsIdx i q 0).val = (i 0).val := by
  unfold DotDims.lhsIdx
  rw [dif_pos (show (0 : Fin S8x150x1024.rank) ∈ dot_S8x150x1024_S8x40x1024_S8x150x40_2_2_1_1_0_0.lhsBatch by decide)]
  rfl
theorem lhs_num_1 (i : S8x150x40.Idx) (q : dot_S8x150x1024_S8x40x1024_S8x150x40_2_2_1_1_0_0.contr.Idx) :
    (dot_S8x150x1024_S8x40x1024_S8x150x40_2_2_1_1_0_0.lhsIdx i q 1).val = (i 1).val := by
  unfold DotDims.lhsIdx
  rw [dif_neg (show ¬(1 : Fin S8x150x1024.rank) ∈ dot_S8x150x1024_S8x40x1024_S8x150x40_2_2_1_1_0_0.lhsBatch by decide),
    dif_pos (show (1 : Fin S8x150x1024.rank) ∈ dot_S8x150x1024_S8x40x1024_S8x150x40_2_2_1_1_0_0.lhsNonContracting by decide)]
  rfl
theorem lhs_num_2 (i : S8x150x40.Idx) (q : dot_S8x150x1024_S8x40x1024_S8x150x40_2_2_1_1_0_0.contr.Idx) :
    (dot_S8x150x1024_S8x40x1024_S8x150x40_2_2_1_1_0_0.lhsIdx i q 2).val = (q ⟨0, by decide⟩).val :=
  dot_S8x150x1024_S8x40x1024_S8x150x40_2_2_1_1_0_0.lhsIdx_val_of_single rfl i q
theorem rhs_num_0 (i : S8x150x40.Idx) (q : dot_S8x150x1024_S8x40x1024_S8x150x40_2_2_1_1_0_0.contr.Idx) :
    (dot_S8x150x1024_S8x40x1024_S8x150x40_2_2_1_1_0_0.rhsIdx i q 0).val = (i 0).val := by
  unfold DotDims.rhsIdx
  rw [dif_pos (show (0 : Fin S8x40x1024.rank) ∈ dot_S8x150x1024_S8x40x1024_S8x150x40_2_2_1_1_0_0.rhsBatch by decide)]
  rfl
theorem rhs_num_1 (i : S8x150x40.Idx) (q : dot_S8x150x1024_S8x40x1024_S8x150x40_2_2_1_1_0_0.contr.Idx) :
    (dot_S8x150x1024_S8x40x1024_S8x150x40_2_2_1_1_0_0.rhsIdx i q 1).val = (i 2).val := by
  unfold DotDims.rhsIdx
  rw [dif_neg (show ¬(1 : Fin S8x40x1024.rank) ∈ dot_S8x150x1024_S8x40x1024_S8x150x40_2_2_1_1_0_0.rhsBatch by decide),
    dif_pos (show (1 : Fin S8x40x1024.rank) ∈ dot_S8x150x1024_S8x40x1024_S8x150x40_2_2_1_1_0_0.rhsNonContracting by decide)]
  rfl
theorem rhs_num_2 (i : S8x150x40.Idx) (q : dot_S8x150x1024_S8x40x1024_S8x150x40_2_2_1_1_0_0.contr.Idx) :
    (dot_S8x150x1024_S8x40x1024_S8x150x40_2_2_1_1_0_0.rhsIdx i q 2).val = (q ⟨0, by decide⟩).val :=
  dot_S8x150x1024_S8x40x1024_S8x150x40_2_2_1_1_0_0.rhsIdx_val_of_single rfl i q

/-- The first matrix product at image p, region r, word w: the inner product over the coordinates. -/
theorem num_apply {φ₁ φ₂ : FTy} (lhs : FVec Ideal S8x150x1024 φ₁) (rhs : FVec Ideal S8x40x1024 φ₂) (p : Fin 8) (r : Fin 150) (w : Fin 40) :
    matmul dot_S8x150x1024_S8x40x1024_S8x150x40_2_2_1_1_0_0 none lhs rhs (constant S8x150x40 .f32 0x00000000#32) (ix3 p r w)
      = ∑ k : Fin 1024, lhs (ix3 p r k) * rhs (ix3 p w k) := by
  refine (Ideal.matmul_constant_zero_apply _ none lhs rhs (ix3 p r w)).trans ?_
  rw [← Equiv.sum_comp (ValueIdx.contrEquiv1 dot_S8x150x1024_S8x40x1024_S8x150x40_2_2_1_1_0_0 1024 rfl rfl).symm]
  refine Finset.sum_congr rfl fun k _ => ?_
  have hk := ValueIdx.contrEquiv1_symm_val dot_S8x150x1024_S8x40x1024_S8x150x40_2_2_1_1_0_0 1024 rfl rfl k
  have el : dot_S8x150x1024_S8x40x1024_S8x150x40_2_2_1_1_0_0.lhsIdx (ix3 p r w) ((ValueIdx.contrEquiv1 dot_S8x150x1024_S8x40x1024_S8x150x40_2_2_1_1_0_0 1024 rfl rfl).symm k) = ix3 p r k := funext fun a => Fin.ext (by
    match a with
    | ⟨0, _⟩ => exact lhs_num_0 _ _
    | ⟨1, _⟩ => exact lhs_num_1 _ _
    | ⟨2, _⟩ => exact (lhs_num_2 _ _).trans hk)
  have er : dot_S8x150x1024_S8x40x1024_S8x150x40_2_2_1_1_0_0.rhsIdx (ix3 p r w) ((ValueIdx.contrEquiv1 dot_S8x150x1024_S8x40x1024_S8x150x40_2_2_1_1_0_0 1024 rfl rfl).symm k) = ix3 p w k := funext fun a => Fin.ext (by
    match a with
    | ⟨0, _⟩ => exact rhs_num_0 _ _
    | ⟨1, _⟩ => exact rhs_num_1 _ _
    | ⟨2, _⟩ => exact (rhs_num_2 _ _).trans hk)
  rw [el, er]

/-! ### The second matrix product: weights against words, contracted over the 40 words -/

theorem lhs_att_0 (i : S8x150x1024.Idx) (q : dot_S8x150x40_S8x40x1024_S8x150x1024_2_1_1_2_0_0.contr.Idx) :
    (dot_S8x150x40_S8x40x1024_S8x150x1024_2_1_1_2_0_0.lhsIdx i q 0).val = (i 0).val := by
  unfold DotDims.lhsIdx
  rw [dif_pos (show (0 : Fin S8x150x40.rank) ∈ dot_S8x150x40_S8x40x1024_S8x150x1024_2_1_1_2_0_0.lhsBatch by decide)]
  rfl
theorem lhs_att_1 (i : S8x150x1024.Idx) (q : dot_S8x150x40_S8x40x1024_S8x150x1024_2_1_1_2_0_0.contr.Idx) :
    (dot_S8x150x40_S8x40x1024_S8x150x1024_2_1_1_2_0_0.lhsIdx i q 1).val = (i 1).val := by
  unfold DotDims.lhsIdx
  rw [dif_neg (show ¬(1 : Fin S8x150x40.rank) ∈ dot_S8x150x40_S8x40x1024_S8x150x1024_2_1_1_2_0_0.lhsBatch by decide),
    dif_pos (show (1 : Fin S8x150x40.rank) ∈ dot_S8x150x40_S8x40x1024_S8x150x1024_2_1_1_2_0_0.lhsNonContracting by decide)]
  rfl
theorem lhs_att_2 (i : S8x150x1024.Idx) (q : dot_S8x150x40_S8x40x1024_S8x150x1024_2_1_1_2_0_0.contr.Idx) :
    (dot_S8x150x40_S8x40x1024_S8x150x1024_2_1_1_2_0_0.lhsIdx i q 2).val = (q ⟨0, by decide⟩).val :=
  dot_S8x150x40_S8x40x1024_S8x150x1024_2_1_1_2_0_0.lhsIdx_val_of_single rfl i q
theorem rhs_att_0 (i : S8x150x1024.Idx) (q : dot_S8x150x40_S8x40x1024_S8x150x1024_2_1_1_2_0_0.contr.Idx) :
    (dot_S8x150x40_S8x40x1024_S8x150x1024_2_1_1_2_0_0.rhsIdx i q 0).val = (i 0).val := by
  unfold DotDims.rhsIdx
  rw [dif_pos (show (0 : Fin S8x40x1024.rank) ∈ dot_S8x150x40_S8x40x1024_S8x150x1024_2_1_1_2_0_0.rhsBatch by decide)]
  rfl
theorem rhs_att_1 (i : S8x150x1024.Idx) (q : dot_S8x150x40_S8x40x1024_S8x150x1024_2_1_1_2_0_0.contr.Idx) :
    (dot_S8x150x40_S8x40x1024_S8x150x1024_2_1_1_2_0_0.rhsIdx i q 1).val = (q ⟨0, by decide⟩).val :=
  dot_S8x150x40_S8x40x1024_S8x150x1024_2_1_1_2_0_0.rhsIdx_val_of_single rfl i q
theorem rhs_att_2 (i : S8x150x1024.Idx) (q : dot_S8x150x40_S8x40x1024_S8x150x1024_2_1_1_2_0_0.contr.Idx) :
    (dot_S8x150x40_S8x40x1024_S8x150x1024_2_1_1_2_0_0.rhsIdx i q 2).val = (i 2).val := by
  unfold DotDims.rhsIdx
  rw [dif_neg (show ¬(2 : Fin S8x40x1024.rank) ∈ dot_S8x150x40_S8x40x1024_S8x150x1024_2_1_1_2_0_0.rhsBatch by decide),
    dif_pos (show (2 : Fin S8x40x1024.rank) ∈ dot_S8x150x40_S8x40x1024_S8x150x1024_2_1_1_2_0_0.rhsNonContracting by decide)]
  rfl

/-- The second matrix product at image p, region r, coordinate k: the sum over the words. -/
theorem att_apply {φ₁ φ₂ : FTy} (lhs : FVec Ideal S8x150x40 φ₁) (rhs : FVec Ideal S8x40x1024 φ₂) (p : Fin 8) (r : Fin 150) (k : Fin 1024) :
    matmul dot_S8x150x40_S8x40x1024_S8x150x1024_2_1_1_2_0_0 none lhs rhs (constant S8x150x1024 .f32 0x00000000#32) (ix3 p r k)
      = ∑ w : Fin 40, lhs (ix3 p r w) * rhs (ix3 p w k) := by
  refine (Ideal.matmul_constant_zero_apply _ none lhs rhs (ix3 p r k)).trans ?_
  rw [← Equiv.sum_comp (ValueIdx.contrEquiv1 dot_S8x150x40_S8x40x1024_S8x150x1024_2_1_1_2_0_0 40 rfl rfl).symm]
  refine Finset.sum_congr rfl fun w _ => ?_
  have hw := ValueIdx.contrEquiv1_symm_val dot_S8x150x40_S8x40x1024_S8x150x1024_2_1_1_2_0_0 40 rfl rfl w
  have el : dot_S8x150x40_S8x40x1024_S8x150x1024_2_1_1_2_0_0.lhsIdx (ix3 p r k) ((ValueIdx.contrEquiv1 dot_S8x150x40_S8x40x1024_S8x150x1024_2_1_1_2_0_0 40 rfl rfl).symm w) = ix3 p r w := funext fun a => Fin.ext (by
    match a with
    | ⟨0, _⟩ => exact lhs_att_0 _ _
    | ⟨1, _⟩ => exact lhs_att_1 _ _
    | ⟨2, _⟩ => exact (lhs_att_2 _ _).trans hw)
  have er : dot_S8x150x40_S8x40x1024_S8x150x1024_2_1_1_2_0_0.rhsIdx (ix3 p r k) ((ValueIdx.contrEquiv1 dot_S8x150x40_S8x40x1024_S8x150x1024_2_1_1_2_0_0 40 rfl rfl).symm w) = ix3 p w k := funext fun a => Fin.ext (by
    match a with
    | ⟨0, _⟩ => exact rhs_att_0 _ _
    | ⟨1, _⟩ => exact (rhs_att_1 _ _).trans hw
    | ⟨2, _⟩ => exact rhs_att_2 _ _)
  rw [el, er]

/-! ### Layout steps read at coordinates -/

/-- The sentence copied to the 8 images: copy p, word w, coordinate k is the sentence's word w at k. -/
theorem copy_apply {α : Type} (v1 : S1x40x1024.Idx → α) (p : Fin 8) (w : Fin 40) (k : Fin 1024) :
    broadcastTo S8x40x1024 (shapeCast S1x40x1024 v1 shapeCasts_S1x40x1024_S1x40x1024) broadcasts_S1x40x1024_S8x40x1024 (ix3 p w k)
      = v1 (ix3 0 w k) := by
  rw [shapeCast_self]
  exact broadcastTo_apply v1 broadcasts_S1x40x1024_S8x40x1024 (ix3 p w k) (ix3 0 w k) (fun a => match a with
    | ⟨0, _⟩ => by show 0 = if (1 : Nat) = 1 then 0 else p.val; rw [if_pos rfl]
    | ⟨1, _⟩ => by show w.val = if (40 : Nat) = 1 then 0 else w.val; rw [if_neg (by decide)]
    | ⟨2, _⟩ => by show k.val = if (1024 : Nat) = 1 then 0 else k.val; rw [if_neg (by decide)])

/-- A per-region value spread along the words: at (p, r, w) it is the value at (p, r). -/
theorem col_apply {α : Type} (x : S8x150.Idx → α) (p : Fin 8) (r : Fin 150) (w : Fin 40) :
    broadcastTo S8x150x40 (shapeCast S8x150x1 x shapeCasts_S8x150_S8x150x1) broadcasts_S8x150x1_S8x150x40 (ix3 p r w)
      = x (ix2 p r) := by
  refine (broadcastTo_apply _ broadcasts_S8x150x1_S8x150x40 (ix3 p r w) (ix3 p r 0) (fun a => match a with
    | ⟨0, _⟩ => by show p.val = if (8 : Nat) = 1 then 0 else p.val; rw [if_neg (by decide)]
    | ⟨1, _⟩ => by show r.val = if (150 : Nat) = 1 then 0 else r.val; rw [if_neg (by decide)]
    | ⟨2, _⟩ => by show 0 = if (1 : Nat) = 1 then 0 else w.val; rw [if_pos rfl])).trans ?_
  refine shapeCast_apply x shapeCasts_S8x150_S8x150x1 (ix3 p r 0) (ix2 p r) ?_
  rw [Shape.rowMajor_val_two, Shape.rowMajor_val_three]
  show p.val * 150 + r.val = (p.val * 150 + r.val) * 1 + 0
  omega

/-- A per-word value spread along the regions: at (p, r, w) it is the value at (p, w). -/
theorem row_apply {α : Type} (y : S8x40.Idx → α) (p : Fin 8) (r : Fin 150) (w : Fin 40) :
    broadcastTo S8x150x40 (shapeCast S8x1x40 y shapeCasts_S8x40_S8x1x40) broadcasts_S8x1x40_S8x150x40 (ix3 p r w)
      = y (ix2 p w) := by
  refine (broadcastTo_apply _ broadcasts_S8x1x40_S8x150x40 (ix3 p r w) (ix3 p 0 w) (fun a => match a with
    | ⟨0, _⟩ => by show p.val = if (8 : Nat) = 1 then 0 else p.val; rw [if_neg (by decide)]
    | ⟨1, _⟩ => by show 0 = if (1 : Nat) = 1 then 0 else r.val; rw [if_pos rfl]
    | ⟨2, _⟩ => by show w.val = if (40 : Nat) = 1 then 0 else w.val; rw [if_neg (by decide)])).trans ?_
  refine shapeCast_apply y shapeCasts_S8x40_S8x1x40 (ix3 p 0 w) (ix2 p w) ?_
  rw [Shape.rowMajor_val_two, Shape.rowMajor_val_three]
  show p.val * 40 + w.val = (p.val * 1 + 0) * 40 + w.val
  omega

/-! ### Reductions along the last axis read at coordinates -/

/-- A lane sum of the 8 sentence copies at copy p and word w: the sum over the coordinates. -/
theorem laneSum_words (src : FVec Ideal S8x40x1024 .f32) (p : Fin 8) (w : Fin 40) :
    multiReduction (F := Ideal) .add [2] S8x40 src 0x00000000#32 reduces_S8x40x1024_S8x40 (.inl rfl) rfl (ix2 p w)
      = ∑ k : Fin 1024, src (ix3 p w k) := by
  refine (Ideal.multiReduction_add_single src 0x00000000#32 reduces_S8x40x1024_S8x40 (.inl rfl) rfl (ix2 p w)).trans ?_
  refine Finset.sum_congr rfl fun k _ => ?_
  refine congrArg src ?_
  funext a
  match a with
  | ⟨0, _⟩ => rfl
  | ⟨1, _⟩ => rfl
  | ⟨2, _⟩ => rfl

/-- A sum along the words at image p and region r. -/
theorem wordSum_apply (src : FVec Ideal S8x150x40 .f32) (p : Fin 8) (r : Fin 150) :
    multiReduction (F := Ideal) .add [2] S8x150 src 0x00000000#32 reduces_S8x150x40_S8x150 (.inl rfl) rfl (ix2 p r)
      = ∑ w : Fin 40, src (ix3 p r w) := by
  refine (Ideal.multiReduction_add_single src 0x00000000#32 reduces_S8x150x40_S8x150 (.inl rfl) rfl (ix2 p r)).trans ?_
  refine Finset.sum_congr rfl fun w _ => ?_
  refine congrArg src ?_
  funext a
  match a with
  | ⟨0, _⟩ => rfl
  | ⟨1, _⟩ => rfl
  | ⟨2, _⟩ => rfl

/-- A maximum along the words at image p and region r: the fold of max from minus infinity. -/
theorem wordMax_apply (src : FVec Ideal S8x150x40 .f32) (p : Fin 8) (r : Fin 150) :
    multiReduction (F := Ideal) .maximumf [2] S8x150 src 0xFF800000#32 reduces_S8x150x40_S8x150 (.inl rfl) rfl (ix2 p r)
      = (Finset.univ : Finset (Fin 40)).fold max ninf (fun w => src (ix3 p r w)) := by
  refine (Ideal.multiReduction_maximumf_single src 0xFF800000#32 reduces_S8x150x40_S8x150 (.inl rfl) rfl (ix2 p r)).trans ?_
  refine congrArg (fun f => (Finset.univ : Finset (Fin 40)).fold max ninf f) ?_
  funext w
  refine congrArg src ?_
  funext a
  match a with
  | ⟨0, _⟩ => rfl
  | ⟨1, _⟩ => rfl
  | ⟨2, _⟩ => rfl

end Attend

open Attend in
/-- The body's region norm is the Euclidean norm of the region's vector. -/
theorem pay2_apply (v0 : Vec Ideal S8x150x1024 .f32) (p : Fin 8) (r : Fin 150) :
    k0_pay2 (F := Ideal) v0 (ix2 p r) = nrm (img v0 p r) := by
  unfold k0_pay2
  show Ideal.sqrt (multiReduction (F := Ideal) .add [2] S8x150 (mulf v0 v0) 0x00000000#32 reduces_S8x150x1024_S8x150 (.inl rfl) rfl (ix2 p r)) = _
  rw [laneSum_img]
  rfl

namespace Attend

/-! ### The body's intermediate values, named -/

/-- The sentence, copied to each of the 8 images. -/
def copies (v1 : Vec Ideal S1x40x1024 .f32) : FVec Ideal S8x40x1024 .f32 :=
  broadcastTo S8x40x1024 (shapeCast S1x40x1024 v1 shapeCasts_S1x40x1024_S1x40x1024) broadcasts_S1x40x1024_S8x40x1024

/-- The norms of the words, per copy. -/
def wordNorms (v1 : Vec Ideal S1x40x1024 .f32) : FVec Ideal S8x40 .f32 :=
  sqrt (multiReduction (F := Ideal) .add [2] S8x40 (mulf (copies v1) (copies v1)) 0x00000000#32 reduces_S8x40x1024_S8x40 (.inl rfl) rfl)

/-- The cosine scores of every region against every word. -/
def scores (v0 : Vec Ideal S8x150x1024 .f32) (v1 : Vec Ideal S1x40x1024 .f32) : FVec Ideal S8x150x40 .f32 :=
  divf
    (matmul dot_S8x150x1024_S8x40x1024_S8x150x40_2_2_1_1_0_0 none (truncf .bf16 v0 bitsLt_bf16_f32) (truncf .bf16 (copies v1) bitsLt_bf16_f32)
      (constant (F := Ideal) S8x150x40 .f32 0x00000000#32))
    (maximumf
      (mulf (broadcastTo S8x150x40 (shapeCast S8x150x1 (k0_pay2 (F := Ideal) v0) shapeCasts_S8x150_S8x150x1) broadcasts_S8x150x1_S8x150x40)
        (broadcastTo S8x150x40 (shapeCast S8x1x40 (wordNorms v1) shapeCasts_S8x40_S8x1x40) broadcasts_S8x1x40_S8x150x40))
      (broadcast S8x150x40 (Scalar.ofBits (F := Ideal) .f32 0x358637BD#32)))

/-- The largest score of each region. -/
def rowMax (v0 : Vec Ideal S8x150x1024 .f32) (v1 : Vec Ideal S1x40x1024 .f32) : FVec Ideal S8x150 .f32 :=
  maximumf (broadcast S8x150 (Scalar.ofBits (F := Ideal) .f32 0xFF800000#32))
    (multiReduction (F := Ideal) .maximumf [2] S8x150 (scores v0 v1) 0xFF800000#32 reduces_S8x150x40_S8x150 (.inl rfl) rfl)

/-- The exponentials of the shifted scores. -/
def exps (v0 : Vec Ideal S8x150x1024 .f32) (v1 : Vec Ideal S1x40x1024 .f32) : FVec Ideal S8x150x40 .f32 :=
  exp (subf (scores v0 v1)
    (broadcastTo S8x150x40 (shapeCast S8x150x1 (rowMax v0 v1) shapeCasts_S8x150_S8x150x1) broadcasts_S8x150x1_S8x150x40))

/-- The softmax weights. -/
def weights (v0 : Vec Ideal S8x150x1024 .f32) (v1 : Vec Ideal S1x40x1024 .f32) : FVec Ideal S8x150x40 .f32 :=
  divf (exps v0 v1)
    (broadcastTo S8x150x40
      (shapeCast S8x150x1
        (multiReduction (F := Ideal) .add [2] S8x150 (exps v0 v1) 0x00000000#32 reduces_S8x150x40_S8x150 (.inl rfl) rfl)
        shapeCasts_S8x150_S8x150x1)
      broadcasts_S8x150x1_S8x150x40)

/-- The body's second matrix product is the product of the softmax weights with the sentence copies. -/
theorem pay3_eq (v0 : Vec Ideal S8x150x1024 .f32) (v1 : Vec Ideal S1x40x1024 .f32) :
    k0_pay3 (F := Ideal) v0 v1
      = matmul dot_S8x150x40_S8x40x1024_S8x150x1024_2_1_1_2_0_0 none (truncf .bf16 (weights v0 v1) bitsLt_bf16_f32) (truncf .bf16 (copies v1) bitsLt_bf16_f32)
          (constant (F := Ideal) S8x150x1024 .f32 0x00000000#32) := rfl

/-! ### Each named value at coordinates, in the specification's terms -/

theorem copies_apply (v1 : Vec Ideal S1x40x1024 .f32) (p : Fin 8) (w : Fin 40) (k : Fin 1024) :
    copies v1 (ix3 p w k) = words v1 w k :=
  copy_apply v1 p w k

theorem wordNorms_apply (v1 : Vec Ideal S1x40x1024 .f32) (p : Fin 8) (w : Fin 40) :
    wordNorms v1 (ix2 p w) = nrm (words v1 w) := by
  unfold wordNorms
  show Ideal.sqrt (multiReduction (F := Ideal) .add [2] S8x40 (mulf (copies v1) (copies v1)) 0x00000000#32 reduces_S8x40x1024_S8x40 (.inl rfl) rfl (ix2 p w)) = _
  rw [laneSum_words]
  refine congrArg Ideal.sqrt (Finset.sum_congr rfl fun k _ => ?_)
  show copies v1 (ix3 p w k) * copies v1 (ix3 p w k) = _
  rw [copies_apply]

theorem scores_apply (v0 : Vec Ideal S8x150x1024 .f32) (v1 : Vec Ideal S1x40x1024 .f32) (p : Fin 8) (r : Fin 150) (w : Fin 40) :
    scores v0 v1 (ix3 p r w) = score (img v0 p) (words v1) r w := by
  unfold scores score
  rw [divf_apply, maximumf_apply, mulf_apply, num_apply, col_apply, row_apply, pay2_apply, wordNorms_apply]
  refine congrArg₂ Ideal.div (Finset.sum_congr rfl fun k _ => ?_) rfl
  show v0 (ix3 p r k) * copies v1 (ix3 p w k) = _
  rw [copies_apply]

theorem rowMax_apply (v0 : Vec Ideal S8x150x1024 .f32) (v1 : Vec Ideal S1x40x1024 .f32) (p : Fin 8) (r : Fin 150) :
    rowMax v0 v1 (ix2 p r) = smax (img v0 p) (words v1) r := by
  unfold rowMax smax
  rw [maximumf_apply, wordMax_apply]
  refine congrArg₂ max rfl (congrArg (fun f => (Finset.univ : Finset (Fin 40)).fold max ninf f) ?_)
  funext w
  exact scores_apply v0 v1 p r w

theorem exps_apply (v0 : Vec Ideal S8x150x1024 .f32) (v1 : Vec Ideal S1x40x1024 .f32) (p : Fin 8) (r : Fin 150) (w : Fin 40) :
    exps v0 v1 (ix3 p r w) = ex (img v0 p) (words v1) r w := by
  unfold exps ex
  show Ideal.exp (subf (scores v0 v1) _ (ix3 p r w)) = _
  rw [subf_apply, col_apply, scores_apply, rowMax_apply]

theorem weights_apply (v0 : Vec Ideal S8x150x1024 .f32) (v1 : Vec Ideal S1x40x1024 .f32) (p : Fin 8) (r : Fin 150) (w : Fin 40) :
    weights v0 v1 (ix3 p r w) = attn (img v0 p) (words v1) r w := by
  unfold weights attn
  rw [divf_apply, col_apply, wordSum_apply, exps_apply]
  refine congrArg (Ideal.div _) (Finset.sum_congr rfl fun w' _ => ?_)
  exact exps_apply v0 v1 p r w'

end Attend

open Attend in
/-- The body's second matrix product is the attended sentence vector. -/
theorem pay3_apply (v0 : Vec Ideal S8x150x1024 .f32) (v1 : Vec Ideal S1x40x1024 .f32) (p : Fin 8) (r : Fin 150) (k : Fin 1024) :
    k0_pay3 (F := Ideal) v0 v1 (ix3 p r k) = sent (img v0 p) (words v1) r k := by
  rw [pay3_eq, att_apply]
  unfold sent
  refine Finset.sum_congr rfl fun w _ => ?_
  show weights v0 v1 (ix3 p r w) * copies v1 (ix3 p w k) = _
  rw [weights_apply, copies_apply]

end Cert.KernelIdeal.Pay

end
-- ==== Proof.KernelPool.lean ====
/-
  The kernel body's stored value, read at image p of the block and segment s.

  From the norm and the attended sentence vector of each region (the two inner values) the body forms the cosine of
  the region against that vector, `exp (6 · cos)`, multiplies the row of 150 such numbers into the 150 × 21 array it
  loaded third, takes the logarithm and divides by 6.
-/
import proofs.«111422_j84061099917852_1_alg».proof.Proof.KernelAttend

noncomputable section

namespace Cert.KernelIdeal.Pay

open Cert.KernelIdeal Cert.KernelIdeal.Gen Idealize.ShloMosaic Idealize.ShloMosaic.ValueIdx Cert.SegPool

/-- A sum over the 1024 coordinates of a block, read at image p and region r. -/
theorem lane_sum (src : FVec Ideal S8x150x1024 .f32) (p : Fin 8) (r : Fin 150) :
    multiReduction (F := Ideal) .add [2] S8x150 src 0x00000000#32 Facts₀.reduces_S8x150x1024_S8x150 (.inl rfl) rfl (ix2 p r)
      = ∑ k : Fin 1024, src (ix3 p r k) := by
  refine (Ideal.multiReduction_add_single src _ Facts₀.reduces_S8x150x1024_S8x150 (.inl rfl) rfl (ix2 p r)).trans ?_
  refine Finset.sum_congr rfl fun k _ => congrArg src ?_
  funext a
  match a with
  | ⟨0, _⟩ => rfl
  | ⟨1, _⟩ => rfl
  | ⟨2, _⟩ => rfl

/-- The numerator of the region's cosine: the inner product of the region with its attended sentence vector. -/
theorem pay4_apply (v0 : Vec Ideal S8x150x1024 .f32) (v1 : Vec Ideal S1x40x1024 .f32) (p : Fin 8) (r : Fin 150) :
    k0_pay4 (F := Ideal) v0 v1 (ix2 p r) = dotp (img v0 p r) (sent (img v0 p) (words v1) r) := by
  unfold k0_pay4
  refine (lane_sum _ p r).trans ?_
  unfold dotp
  refine Finset.sum_congr rfl fun k _ => ?_
  rw [mulf_apply, pay3_apply]

/-- The denominator of the region's cosine: the product of the two norms, floored. -/
theorem pay5_apply (v0 : Vec Ideal S8x150x1024 .f32) (v1 : Vec Ideal S1x40x1024 .f32) (p : Fin 8) (r : Fin 150) :
    k0_pay5 (F := Ideal) v0 v1 (ix2 p r)
      = max (nrm (img v0 p r) * nrm (sent (img v0 p) (words v1) r)) eps := by
  unfold k0_pay5
  show max (k0_pay2 (F := Ideal) v0 (ix2 p r) * Ideal.sqrt (multiReduction (F := Ideal) .add [2] S8x150
      (mulf (k0_pay3 v0 v1) (k0_pay3 v0 v1)) 0x00000000#32 Facts₀.reduces_S8x150x1024_S8x150 (.inl rfl) rfl (ix2 p r)))
      (Ideal.ofBits .f32 0x358637BD#32) = _
  rw [pay2_apply, lane_sum]
  refine congrArg (fun t => max (nrm (img v0 p r) * Ideal.sqrt t) eps) ?_
  unfold dotp
  refine Finset.sum_congr rfl fun k _ => ?_
  rw [mulf_apply, pay3_apply]

/-- The summand of the pooling: exp of six times the region's cosine. -/
theorem es_apply (v0 : Vec Ideal S8x150x1024 .f32) (v1 : Vec Ideal S1x40x1024 .f32) (p : Fin 8) (r : Fin 150) :
    Ideal.exp (Ideal.div (k0_pay4 (F := Ideal) v0 v1 (ix2 p r)) (k0_pay5 (F := Ideal) v0 v1 (ix2 p r)) * six)
      = es (img v0 p) (words v1) r := by
  rw [pay4_apply, pay5_apply]
  unfold es cosr
  rfl

/-- The left operand's row is the output's row. -/
theorem lhs_pool_0 (i : S8x21.Idx) (q : dot_S8x150_S150x21_S8x21_1_0_0_1_n_n.contr.Idx) :
    (dot_S8x150_S150x21_S8x21_1_0_0_1_n_n.lhsIdx i q 0).val = (i 0).val := by
  unfold DotDims.lhsIdx
  rw [dif_neg (show ¬(0 : Fin S8x150.rank) ∈ dot_S8x150_S150x21_S8x21_1_0_0_1_n_n.lhsBatch by decide),
    dif_pos (show (0 : Fin S8x150.rank) ∈ dot_S8x150_S150x21_S8x21_1_0_0_1_n_n.lhsNonContracting by decide)]
  rfl
/-- The left operand's column is the contracted region. -/
theorem lhs_pool_1 (i : S8x21.Idx) (q : dot_S8x150_S150x21_S8x21_1_0_0_1_n_n.contr.Idx) :
    (dot_S8x150_S150x21_S8x21_1_0_0_1_n_n.lhsIdx i q 1).val = (q ⟨0, by decide⟩).val :=
  dot_S8x150_S150x21_S8x21_1_0_0_1_n_n.lhsIdx_val_of_single rfl i q
/-- The right operand's row is the contracted region. -/
theorem rhs_pool_0 (i : S8x21.Idx) (q : dot_S8x150_S150x21_S8x21_1_0_0_1_n_n.contr.Idx) :
    (dot_S8x150_S150x21_S8x21_1_0_0_1_n_n.rhsIdx i q 0).val = (q ⟨0, by decide⟩).val :=
  dot_S8x150_S150x21_S8x21_1_0_0_1_n_n.rhsIdx_val_of_single rfl i q
/-- The right operand's column is the output's column. -/
theorem rhs_pool_1 (i : S8x21.Idx) (q : dot_S8x150_S150x21_S8x21_1_0_0_1_n_n.contr.Idx) :
    (dot_S8x150_S150x21_S8x21_1_0_0_1_n_n.rhsIdx i q 1).val = (i 1).val := by
  unfold DotDims.rhsIdx
  rw [dif_neg (show ¬(1 : Fin S150x21.rank) ∈ dot_S8x150_S150x21_S8x21_1_0_0_1_n_n.rhsBatch by decide),
    dif_pos (show (1 : Fin S150x21.rank) ∈ dot_S8x150_S150x21_S8x21_1_0_0_1_n_n.rhsNonContracting by decide)]
  rfl

/-- The row of 150 numbers against the 150 × 21 array: at (p, s) the sum over the regions. -/
theorem pool_matmul (e : FVec Ideal S8x150 .f32) (v46 : Vec Ideal S150x21 .f32) (p : Fin 8) (s : Fin 21) :
    matmul (F := Ideal) (φ₂ := .f32) dot_S8x150_S150x21_S8x21_1_0_0_1_n_n none e v46 (constant S8x21 .f32 0x00000000#32) (ix2 p s)
      = ∑ r : Fin 150, e (ix2 p r) * v46 (ix2 r s) := by
  simp only [matmul]
  rw [Ideal.matmul_constant_zero_apply,
    ← Equiv.sum_comp (ValueIdx.contrEquiv1 dot_S8x150_S150x21_S8x21_1_0_0_1_n_n 150 rfl rfl).symm]
  refine Finset.sum_congr rfl fun k _ => ?_
  have hk := ValueIdx.contrEquiv1_symm_val dot_S8x150_S150x21_S8x21_1_0_0_1_n_n 150 rfl rfl k
  have el : dot_S8x150_S150x21_S8x21_1_0_0_1_n_n.lhsIdx (ix2 p s)
      ((ValueIdx.contrEquiv1 dot_S8x150_S150x21_S8x21_1_0_0_1_n_n 150 rfl rfl).symm k) = ix2 p k :=
    funext fun a => Fin.ext (by
      match a with
      | ⟨0, _⟩ => exact lhs_pool_0 _ _
      | ⟨1, _⟩ => exact (lhs_pool_1 _ _).trans hk)
  have er : dot_S8x150_S150x21_S8x21_1_0_0_1_n_n.rhsIdx (ix2 p s)
      ((ValueIdx.contrEquiv1 dot_S8x150_S150x21_S8x21_1_0_0_1_n_n 150 rfl rfl).symm k) = ix2 k s :=
    funext fun a => Fin.ext (by
      match a with
      | ⟨0, _⟩ => exact (rhs_pool_0 _ _).trans hk
      | ⟨1, _⟩ => exact rhs_pool_1 _ _)
  rw [el, er]

/-- The stored block at (p, s): the logarithm, over 6, of the sum over the regions of `exp (6 · cos)` times the
    loaded array's entry (r, s). -/
theorem pay_apply (v0 : Vec Ideal S8x150x1024 .f32) (v1 : Vec Ideal S1x40x1024 .f32) (v46 : Vec Ideal S150x21 .f32)
    (p : Fin 8) (s : Fin 21) :
    k0_pay1 (F := Ideal) (k0_pay4 v0 v1) (k0_pay5 v0 v1) v46 (ix2 p s)
      = Ideal.div (Ideal.log (∑ r : Fin 150, es (img v0 p) (words v1) r * v46 (ix2 r s))) six := by
  unfold k0_pay1
  refine congrArg (fun t => Ideal.div (Ideal.log t) six) ?_
  refine (pool_matmul _ v46 p s).trans ?_
  refine Finset.sum_congr rfl fun r _ => congrArg (· * v46 (ix2 r s)) ?_
  exact es_apply v0 v1 p r

end Cert.KernelIdeal.Pay

end
-- ==== Proof.MaskTable.lean ====
/-
  The 150 × 21 constant the kernel multiplies the row of pooled summands into.

  Its entry (r, s) is 1 when region r lies in segment s (`segLo s ≤ r < segHi s`) and 0 otherwise: column s is the
  indicator of segment s.  The table is printed word by word (3150 words, row-major, entry (r, s) at position
  21 r + s), so the fact is checked word by word; on the extended reals the two words denote the numbers 1 and 0.
-/
import proofs.«111422_j84061099917852_1_alg».proof.KernelIdeal
import proofs.«111422_j84061099917852_1_alg».proof.Proof.Spec
import Idealize.ShloMosaic.PureOps.IdealRules
import Idealize.ShloMosaic.Lib.ValueIdx

noncomputable section

namespace Cert.KernelIdeal.Mask

open Cert.KernelIdeal Idealize.ShloMosaic Idealize.ShloMosaic.ValueIdx Cert.SegPool

/-- The word at position 21 r + s is the pattern of 1.0 when region r lies in segment s, of 0.0 when not. -/
theorem lit_word : ∀ (r : Fin 150) (s : Fin 21), lit0 ⟨r.val * 21 + s.val, by have := r.isLt; have := s.isLt; omega⟩
    = if segLo s ≤ r.val ∧ r.val < segHi s then 0x3F800000#32 else 0x00000000#32 := by
  decide +kernel

/-- Entry (r, s), read on the extended reals: one on segment s, zero off it. -/
theorem entry (r : Fin 150) (s : Fin 21) :
    Ideal.ofBits .f32 (lit0 (S150x21.rowMajor (ix2 r s))) = if segLo s ≤ r.val ∧ r.val < segHi s then (1 : EReal) else 0 := by
  have hr := r.isLt
  have hs := s.isLt
  have hv : (S150x21.rowMajor (ix2 r s)).val = r.val * 21 + s.val := by
    rw [Shape.rowMajor_val_two]
    rfl
  have e : (S150x21.rowMajor (ix2 r s) : Fin 3150) = ⟨r.val * 21 + s.val, by omega⟩ := Fin.ext hv
  refine (congrArg (Ideal.ofBits .f32) ((congrArg lit0 e).trans (lit_word r s))).trans ?_
  by_cases h : segLo s ≤ r.val ∧ r.val < segHi s
  · rw [if_pos h, if_pos h]
    exact IdealRules.sign_bit.ideal_onePat .f32
  · rw [if_neg h, if_neg h]
    exact Ideal.ofBits_zero_f32

end Cert.KernelIdeal.Mask

end
-- ==== Proof.PoolLaws.lean ====
/-
  Two ways of summing over a run of consecutive indices, brought to one form.

  A sum over the window `lo, lo+1, …, lo+len-1` of `Fin n`, and a sum over all of `Fin n` against a weight that is
  one on the window and zero off it, are both the sum over `Fin n` of the term cut off (made zero) outside the
  window.  On the extended reals the second needs only `a * 1 = a` and `a * 0 = 0`, which hold for every `a`,
  the infinities included, so nothing here asks the terms to be finite.
-/
import Idealize.ShloMosaic.PureOps.Ideal

namespace Cert.SegPool

/-- The sum over a window of consecutive indices is the sum over every index of the term made zero off the window. -/
theorem sum_window {M : Type} [AddCommMonoid M] {n : Nat} (f : Fin n → M) (lo len : Nat) (h : lo + len ≤ n) :
    ∑ k : Fin len, f ⟨lo + k.val, by have := k.isLt; omega⟩
      = ∑ r : Fin n, if lo ≤ r.val ∧ r.val < lo + len then f r else 0 := by
  rw [← Finset.sum_filter]
  refine Finset.sum_bij (fun k _ => (⟨lo + k.val, by have := k.isLt; omega⟩ : Fin n)) ?_ ?_ ?_ ?_
  · intro k _
    simp only [Finset.mem_filter, Finset.mem_univ, true_and]
    have := k.isLt
    exact ⟨by omega, by omega⟩
  · intro a _ b _ e
    apply Fin.ext
    have := congrArg Fin.val e
    simp only at this
    omega
  · intro r hr
    simp only [Finset.mem_filter, Finset.mem_univ, true_and] at hr
    exact ⟨⟨r.val - lo, by omega⟩, Finset.mem_univ _, Fin.ext (by simp only; omega)⟩
  · intro k _
    rfl

/-- The whole range as a window: nothing is cut off. -/
theorem sum_whole {M : Type} [AddCommMonoid M] {n : Nat} (f : Fin n → M) :
    ∑ r : Fin n, f r = ∑ r : Fin n, if 0 ≤ r.val ∧ r.val < n then f r else 0 :=
  Finset.sum_congr rfl fun r _ => (if_pos ⟨Nat.zero_le _, r.isLt⟩).symm

/-- A sum against a weight that is one on a set and zero off it is the sum of the term made zero off the set. -/
theorem sum_mul_indicator {n : Nat} (f : Fin n → EReal) (P : Fin n → Prop) [DecidablePred P] :
    ∑ r : Fin n, f r * (if P r then (1 : EReal) else 0) = ∑ r : Fin n, if P r then f r else 0 :=
  Finset.sum_congr rfl fun r _ => by
    by_cases hp : P r
    · rw [if_pos hp, if_pos hp, mul_one]
    · rw [if_neg hp, if_neg hp, mul_zero]

end Cert.SegPool
-- ==== Proof.KernelFinal.lean ====
/-
  The kernel's result array as ONE function of its two argument arrays.

  The grid has 32 points; point t works on images 8 t … 8 t + 7 (all 150 regions, all 1024 coordinates), on the whole
  sentence and on the whole 150 × 21 constant, and writes rows 8 t … 8 t + 7 of the 256 × 21 result.  The block it
  stores holds, at (p, s), the logarithm over 6 of the sum over the regions of `exp (6 · cos)` times the constant's
  entry (r, s); the constant is the indicator of segment s, so that sum is the sum over the segment, and the stored
  value is the specification's pooling of segment s of image 8 t + p.  The 32 blocks tile the result, so the whole
  array ends at `G`: at (b, s) the pooling of segment s of image b.
-/
import proofs.«111422_j84061099917852_1_alg».proof.Proof.Gen.KernelIdeal.Value
import proofs.«111422_j84061099917852_1_alg».proof.Proof.KernelPool
import proofs.«111422_j84061099917852_1_alg».proof.Proof.MaskTable
import proofs.«111422_j84061099917852_1_alg».proof.Proof.PoolLaws
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo Cert.SegPool
open Idealize.ShloMosaic.Pipeline (Dat)

/-- Image b of the whole array of images, as region-by-coordinate reals. -/
abbrev imgOf (a0 : S256x150x1024.Idx → EReal) (b : Fin 256) : Fin 150 → Fin 1024 → EReal := fun r k => a0 (ix3 b r k)

/-- The sentence, as word-by-coordinate reals. -/
abbrev wordsOf (a1 : S1x40x1024.Idx → EReal) : Fin 40 → Fin 1024 → EReal := fun w k => a1 (ix3 0 w k)

/-- The result array: at (b, s) the log-sum-exp pooling of segment s of image b. -/
def G (a0 : S256x150x1024.Idx → EReal) (a1 : S1x40x1024.Idx → EReal) : S256x21.Idx → EReal :=
  fun i => pooled (imgOf a0 ⟨(i 0).val, (i 0).isLt⟩) (wordsOf a1) ⟨(i 1).val, (i 1).isLt⟩

/-- The block a point stores, from the blocks it loaded: when the first is images 8 q … 8 q + 7 of `a0`, the second
    the sentence `a1` and the third the segment indicators, entry (p, s) is `G` at (8 q + p, s). -/
theorem block_value (x0 : Vec Ideal S8x150x1024 .f32) (x1 : Vec Ideal S1x40x1024 .f32) (x2 : Vec Ideal S150x21 .f32)
    (a0 : S256x150x1024.Idx → EReal) (a1 : S1x40x1024.Idx → EReal) (q : Nat) (hq : q ≤ 31)
    (h0 : ∀ (p : Fin 8) (r : Fin 150) (k : Fin 1024),
      x0 (ix3 p r k) = a0 (ix3 (⟨q * 8 + p.val, by have := p.isLt; omega⟩ : Fin 256) r k))
    (h1 : ∀ (w : Fin 40) (k : Fin 1024), x1 (ix3 0 w k) = a1 (ix3 0 w k))
    (h2 : ∀ (r : Fin 150) (s : Fin 21), x2 (ix2 r s) = Ideal.ofBits .f32 (lit0 (S150x21.rowMajor (ix2 r s))))
    (p : Fin 8) (s : Fin 21) :
    k0_pay1 (F := Ideal) (k0_pay4 x0 x1) (k0_pay5 x0 x1) x2 (ix2 p s)
      = G a0 a1 (ix2 (⟨q * 8 + p.val, by have := p.isLt; omega⟩ : Fin 256) s) := by
  rw [Pay.pay_apply]
  have e0 : Pay.img x0 p = imgOf a0 ⟨q * 8 + p.val, by have := p.isLt; omega⟩ :=
    funext fun r => funext fun k => h0 p r k
  have e1 : Pay.words x1 = wordsOf a1 := funext fun w => funext fun k => h1 w k
  rw [e0, e1]
  show Ideal.div (Ideal.log (∑ r : Fin 150,
        es (imgOf a0 ⟨q * 8 + p.val, by have := p.isLt; omega⟩) (wordsOf a1) r * x2 (ix2 r s))) six
      = Ideal.div (Ideal.log (∑ r : Fin 150, if segLo s ≤ r.val ∧ r.val < segHi s
          then es (imgOf a0 ⟨q * 8 + p.val, by have := p.isLt; omega⟩) (wordsOf a1) r else 0)) six
  refine congrArg (fun z => Ideal.div (Ideal.log z) six) ?_
  refine (Finset.sum_congr rfl fun r _ => ?_).trans
    (sum_mul_indicator (fun r => es (imgOf a0 ⟨q * 8 + p.val, by have := p.isLt; omega⟩) (wordsOf a1) r)
      (fun r : Fin 150 => segLo s ≤ r.val ∧ r.val < segHi s))
  rw [h2 r s, Mask.entry r s]

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 32 points: the images' block moves with the result's block along the first
    axis and sits at 0 on the others; the sentence's and the constant's blocks never move; the result's block index
    is (t, 0). -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every one of the 32 row blocks of the result is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The constant the host writes before the region, as the region finds it: the table's words, read as numbers. -/
theorem V_main_cst (c : Dev nD) :
    (V m c main_cst : S150x21.Idx → EReal) = fun i => Ideal.ofBits .f32 (lit0 (S150x21.rowMajor i)) := by
  dsimp only [Gen.V, Gen.hostOps0]
  after_results
  rfl

/-- WHAT POINT t WRITES BACK is block t of `G` of the argument arrays as the region finds them. -/
theorem flushed_eq (c : Dev nD) (t : Fin cfg0.N) :
    (dats m 0 c).flushed 3 t
      = ((cfg0.win 3).blk t).view.read (Elt Ideal) (G (V m c main_arg0) (V m c main_arg1)) := by
  rw [Value.flushed3]
  unfold out0_3
  rw [View.canon_unit_zero hz2]
  simp only [View.ld_unit_zero (S := S8x150x1024) hz3, View.ld_unit_zero (S := S1x40x1024) hz3,
    View.ld_unit_zero (S := S150x21) hz2]
  obtain ⟨e0, e1, e2, e3, e4, e5, e6, e7, e8, e9⟩ := idx_facts t
  funext j
  have hj0 : (j 0).val < 8 := (j 0).isLt
  have hj1 : (j 1).val < 21 := (j 1).isLt
  show k0_pay1 (F := Ideal) (k0_pay4 (iblk m c 0 t) (iblk m c 1 t)) (k0_pay5 (iblk m c 0 t) (iblk m c 1 t)) (iblk m c 2 t) j
      = G (V m c main_arg0) (V m c main_arg1) (((cfg0.win 3).blk t).view.emb j)
  have hj : j = ix2 (⟨(j 0).val, hj0⟩ : Fin 8) (⟨(j 1).val, hj1⟩ : Fin 21) :=
    funext fun a => by match a with | ⟨0, _⟩ => rfl | ⟨1, _⟩ => rfl
  have hemb : ((cfg0.win 3).blk t).view.emb j
      = ix2 (⟨win0_3.index t (0 : Fin 2) * 8 + (j 0).val, by omega⟩ : Fin 256) (⟨(j 1).val, hj1⟩ : Fin 21) :=
    funext fun a => Fin.ext (by
      match a with
      | ⟨0, _⟩ => show win0_3.index t (0 : Fin 2) * 8 + 1 * (j 0).val = win0_3.index t (0 : Fin 2) * 8 + (j 0).val; omega
      | ⟨1, _⟩ => show win0_3.index t (1 : Fin 2) * 21 + 1 * (j 1).val = (j 1).val; omega)
  rw [hemb]
  refine (congrArg (k0_pay1 (F := Ideal) (k0_pay4 (iblk m c 0 t) (iblk m c 1 t)) (k0_pay5 (iblk m c 0 t) (iblk m c 1 t)) (iblk m c 2 t)) hj).trans ?_
  refine block_value (iblk m c 0 t) (iblk m c 1 t) (iblk m c 2 t) (V m c main_arg0) (V m c main_arg1)
    (win0_3.index t (0 : Fin 2)) e9 ?_ ?_ ?_ ⟨(j 0).val, hj0⟩ ⟨(j 1).val, hj1⟩
  · intro p r k
    have hp := p.isLt
    show V m c main_arg0 (((cfg0.win 0).blk t).view.emb (ix3 p r k)) = V m c main_arg0 _
    refine congrArg (V m c main_arg0) (funext fun a => Fin.ext ?_)
    match a with
    | ⟨0, _⟩ => show win0_0.index t (0 : Fin 3) * 8 + 1 * p.val = win0_3.index t (0 : Fin 2) * 8 + p.val; omega
    | ⟨1, _⟩ => show win0_0.index t (1 : Fin 3) * 150 + 1 * r.val = r.val; omega
    | ⟨2, _⟩ => show win0_0.index t (2 : Fin 3) * 1024 + 1 * k.val = k.val; omega
  · intro w k
    show V m c main_arg1 (((cfg0.win 1).blk t).view.emb (ix3 0 w k)) = V m c main_arg1 _
    refine congrArg (V m c main_arg1) (funext fun a => Fin.ext ?_)
    match a with
    | ⟨0, _⟩ => show win0_1.index t (0 : Fin 3) * 1 + 1 * 0 = 0; omega
    | ⟨1, _⟩ => show win0_1.index t (1 : Fin 3) * 40 + 1 * w.val = w.val; omega
    | ⟨2, _⟩ => show win0_1.index t (2 : Fin 3) * 1024 + 1 * k.val = k.val; omega
  · intro r s
    show V m c main_cst (((cfg0.win 2).blk t).view.emb (ix2 r s)) = _
    have hidx : ((cfg0.win 2).blk t).view.emb (ix2 r s) = ix2 r s := funext fun a => Fin.ext (by
      match a with
      | ⟨0, _⟩ => show win0_2.index t (0 : Fin 2) * 150 + 1 * r.val = r.val; omega
      | ⟨1, _⟩ => show win0_2.index t (1 : Fin 2) * 21 + 1 * s.val = s.val; omega)
    rw [hidx]
    exact congrFun (V_main_cst m c) (ix2 r s)

/-- An index of the result is in point t's block iff each coordinate is in the block's range on its axis. -/
theorem mem_blk (t : Fin cfg0.N) (i : S256x21.Idx) :
    i ∈ ((cfg0.win 3).blk t).view.set
      ↔ ∀ a : Fin 2, win0_3.index t a * S8x21.size a ≤ (i a).val ∧ (i a).val < win0_3.index t a * S8x21.size a + S8x21.size a := by
  show i ∈ ((View.whole main_v0).slice (win0_3.rect t)).set ↔ _
  rw [View.set_slice_whole, Rect.mem_set_unit]
  exact Iff.rfl

/-- The 32 blocks cover the result: row b lies in the block of point b / 8. -/
theorem cover (i : S256x21.Idx) :
    ∃ t : Fin cfg0.N, (cfg0.win 3).flush t = true ∧ i ∈ ((cfg0.win 3).blk t).view.set := by
  have hi0 : (i 0).val < 256 := (i 0).isLt
  have hi1 : (i 1).val < 21 := (i 1).isLt
  obtain ⟨t, ht⟩ := idx_onto ⟨(i 0).val / 8, by omega⟩
  have q0 : win0_3.index t (0 : Fin 2) = (i 0).val / 8 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 21 ≤ (i 1).val ∧ (i 1).val < win0_3.index t (1 : Fin 2) * 21 + 21; omega

/-- THE ARRAY after the run is `G` of the argument arrays as launched. -/
theorem final (c : Dev nD) :
    (dats m 0 c).arrAt 3 cfg0.N = G (m ((c : Thread nD τ).loc main_arg0)) (m ((c : Thread nD τ).loc main_arg1)) := by
  rw [(dats m 0 c).arrAt_eq_of_cover 3 (G (V m c main_arg0) (V m c main_arg1)) (fun t _ => flushed_eq m c t) cover,
    V_main_arg0, V_main_arg1]

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefStages.lean ====
/-
  The reference program's run, read stage by stage.

  The contents of the result buffer after the whole line of 220 operations are read in the order the line runs: the
  first stretch leaves in `%33` its stage's value of the two arguments; each pooling of the second stretch leaves
  its stage's value as soon as `%33` holds its own; the three concatenations of the third stretch lay side by side
  whatever the poolings left.  Every value is named by the stage that defines it (`val_…`), so the result is the
  last stage, `val_main_v161`, of the arguments, and no composed term is ever written out.  The run then follows
  from the library's theorem for a straight line of host operations.
-/
import proofs.«111422_j84061099917852_1_alg».proof.Proof.RefStretch
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The first stretch -/

set_option maxRecDepth 8192 in
set_option maxHeartbeats 4000000 in
/-- After the first stretch `%33` holds its stage's value of the arguments. -/
theorem stage_v33 (V : Valuation τ sig (Elt F)) :
    after (opsP (F := F)) V (Proc.devRef .tc main_v33)
      = val_main_v33 (F := F) (V (Proc.devRef .tc main_arg0)) (V (Proc.devRef .tc main_arg1)) := by
  after_results_simp <;> (try simp only [TRef.ofBuf, TRef.toBuf, cast_eq]) <;> rfl

/-! ## The third stretch: each concatenation over any contents -/

/-- The last concatenation writes the two groups side by side. -/
theorem res161 (U : Valuation τ sig (Elt F)) :
    (op161 (F := F)).result U (Proc.devRef .tc main_v161)
      = concatenate S256x21 1 [⟨S256x16, U (Proc.devRef .tc main_v159)⟩, ⟨S256x5, U (Proc.devRef .tc main_v160)⟩] concatenates_S256x16_S256x5_S256x21_d1 := by
  unfold op161
  rw [binary_result]

/-- The concatenation of the last five columns writes them side by side, -/
theorem res160 (U : Valuation τ sig (Elt F)) :
    (op160 (F := F)).result U (Proc.devRef .tc main_v160)
      = concatenate S256x5 1 [⟨S256x1, U (Proc.devRef .tc main_v134)⟩, ⟨S256x1, U (Proc.devRef .tc main_v140)⟩,
          ⟨S256x1, U (Proc.devRef .tc main_v146)⟩, ⟨S256x1, U (Proc.devRef .tc main_v152)⟩,
          ⟨S256x1, U (Proc.devRef .tc main_v158)⟩] concatenates_S256x1_S256x1_S256x1_S256x1_S256x1_S256x5_d1 := by
  unfold op160
  rw [nary_result]
  rfl

/-- and touches no other buffer. -/
theorem res160_ne (U : Valuation τ sig (Elt F)) (r : Ref sig .tc) (h : r ≠ main_v160) :
    (op160 (F := F)).result U (Proc.devRef .tc r) = U (Proc.devRef .tc r) := by
  unfold op160
  exact nary_result_ne (h := h) ..

/-- The concatenation of the first sixteen columns writes them side by side, -/
theorem res159 (U : Valuation τ sig (Elt F)) :
    (op159 (F := F)).result U (Proc.devRef .tc main_v159)
      = concatenate S256x16 1 [⟨S256x1, U (Proc.devRef .tc main_v39)⟩, ⟨S256x1, U (Proc.devRef .tc main_v45)⟩,
          ⟨S256x1, U (Proc.devRef .tc main_v51)⟩, ⟨S256x1, U (Proc.devRef .tc main_v57)⟩,
          ⟨S256x1, U (Proc.devRef .tc main_v63)⟩, ⟨S256x1, U (Proc.devRef .tc main_v68)⟩,
          ⟨S256x1, U (Proc.devRef .tc main_v74)⟩, ⟨S256x1, U (Proc.devRef .tc main_v80)⟩,
          ⟨S256x1, U (Proc.devRef .tc main_v86)⟩, ⟨S256x1, U (Proc.devRef .tc main_v92)⟩,
          ⟨S256x1, U (Proc.devRef .tc main_v98)⟩, ⟨S256x1, U (Proc.devRef .tc main_v104)⟩,
          ⟨S256x1, U (Proc.devRef .tc main_v110)⟩, ⟨S256x1, U (Proc.devRef .tc main_v116)⟩,
          ⟨S256x1, U (Proc.devRef .tc main_v122)⟩, ⟨S256x1, U (Proc.devRef .tc main_v128)⟩] concatenates_S256x1_S256x1_S256x1_S256x1_S256x1_S256x1_S256x1_S256x1_S256x1_S256x1_S256x1_S256x1_S256x1_S256x1_S256x1_S256x1_S256x16_d1 := by
  unfold op159
  rw [nary_result]
  rfl

/-- and touches no other buffer. -/
theorem res159_ne (U : Valuation τ sig (Elt F)) (r : Ref sig .tc) (h : r ≠ main_v159) :
    (op159 (F := F)).result U (Proc.devRef .tc r) = U (Proc.devRef .tc r) := by
  unfold op159
  exact nary_result_ne (h := h) ..

/-- After the third stretch the result holds the 21 columns, as the poolings left them, side by side. -/
theorem stage_concat (W : Valuation τ sig (Elt F)) :
    after (opsC (F := F)) W (Proc.devRef .tc main_v161)
      = concatenate S256x21 1
          [⟨S256x16, concatenate S256x16 1 [⟨S256x1, W (Proc.devRef .tc main_v39)⟩, ⟨S256x1, W (Proc.devRef .tc main_v45)⟩,
              ⟨S256x1, W (Proc.devRef .tc main_v51)⟩, ⟨S256x1, W (Proc.devRef .tc main_v57)⟩,
              ⟨S256x1, W (Proc.devRef .tc main_v63)⟩, ⟨S256x1, W (Proc.devRef .tc main_v68)⟩,
              ⟨S256x1, W (Proc.devRef .tc main_v74)⟩, ⟨S256x1, W (Proc.devRef .tc main_v80)⟩,
              ⟨S256x1, W (Proc.devRef .tc main_v86)⟩, ⟨S256x1, W (Proc.devRef .tc main_v92)⟩,
              ⟨S256x1, W (Proc.devRef .tc main_v98)⟩, ⟨S256x1, W (Proc.devRef .tc main_v104)⟩,
              ⟨S256x1, W (Proc.devRef .tc main_v110)⟩, ⟨S256x1, W (Proc.devRef .tc main_v116)⟩,
              ⟨S256x1, W (Proc.devRef .tc main_v122)⟩, ⟨S256x1, W (Proc.devRef .tc main_v128)⟩] concatenates_S256x1_S256x1_S256x1_S256x1_S256x1_S256x1_S256x1_S256x1_S256x1_S256x1_S256x1_S256x1_S256x1_S256x1_S256x1_S256x1_S256x16_d1⟩,
           ⟨S256x5, concatenate S256x5 1 [⟨S256x1, W (Proc.devRef .tc main_v134)⟩, ⟨S256x1, W (Proc.devRef .tc main_v140)⟩,
              ⟨S256x1, W (Proc.devRef .tc main_v146)⟩, ⟨S256x1, W (Proc.devRef .tc main_v152)⟩,
              ⟨S256x1, W (Proc.devRef .tc main_v158)⟩] concatenates_S256x1_S256x1_S256x1_S256x1_S256x1_S256x5_d1⟩] concatenates_S256x16_S256x5_S256x21_d1 := by
  show (op161 (F := F)).result ((op160 (F := F)).result ((op159 (F := F)).result W)) (Proc.devRef .tc main_v161) = _
  rw [res161, res160_ne _ main_v159 (by decide), res159, res160,
    res159_ne _ main_v134 (by decide), res159_ne _ main_v140 (by decide), res159_ne _ main_v146 (by decide),
    res159_ne _ main_v152 (by decide), res159_ne _ main_v158 (by decide)]

/-! ## The whole line -/

/-- After the whole line the result holds the last stage's value of the arguments. -/
theorem after_ops (V : Valuation τ sig (Elt F)) :
    after (ValueP.ops (F := F)) V (Proc.devRef .tc main_v161)
      = val_main_v161 (F := F) (V (Proc.devRef .tc main_arg0)) (V (Proc.devRef .tc main_arg1)) := by
  rw [ops_cut, StableHlo.after_append, StableHlo.after_append]
  have h33 := stage_v33 V
  generalize after (opsP (F := F)) V = W at h33 ⊢
  rw [stage_concat]
  rw [piece_v39 W _ _ h33, piece_v45 W _ _ h33, piece_v51 W _ _ h33, piece_v57 W _ _ h33, piece_v63 W _ _ h33,
    piece_v68 W _ _ h33, piece_v74 W _ _ h33, piece_v80 W _ _ h33, piece_v86 W _ _ h33, piece_v92 W _ _ h33,
    piece_v98 W _ _ h33, piece_v104 W _ _ h33, piece_v110 W _ _ h33, piece_v116 W _ _ h33, piece_v122 W _ _ h33,
    piece_v128 W _ _ h33, piece_v134 W _ _ h33, piece_v140 W _ _ h33, piece_v146 W _ _ h33, piece_v152 W _ _ h33,
    piece_v158 W _ _ h33]
  rfl

/-! ## The run -/

set_option maxRecDepth 8192 in
set_option maxHeartbeats 88000000 in
/-- On every device, for any float values, from any memory with zero counters: every weakly fair execution of the
    reference terminates with its result at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
          = val_main_v161 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v161).trans (after_ops _),
      (h c main_arg0).trans (by after_results_simp <;> rfl),
      (h c main_arg1).trans (by after_results_simp <;> rfl)⟩)
    (run_seq ValueP.scopedRefs_eq ValueP.scopedSems_eq defs main (fun _ => ValueP.ops) ValueP.main_eq (fun _ => ValueP.ops_sub) m ρ)

end Cert.ReferenceIdeal.Stages

end
-- ==== Proof.RefAttend.lean ====
/-
  The reference's two inner values, read at an index of one image.

  Image b of the 256 is `fun r k => x0 (ix3 b r k)`; the sentence is the one row-set of `x1`, which the reference
  first copies to every image.  Its norm of region r is the Euclidean norm of the region's vector, and its second
  batched product (softmax weights against the words) is the attended sentence vector of the specification.
-/
import proofs.«111422_j84061099917852_1_alg».proof.Proof.RefRead
import proofs.«111422_j84061099917852_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.SegPool
open Cert.ReferenceIdeal.ReadP

/-- Image b, as region-by-coordinate reals. -/
abbrev img (x0 : (⟨S256x150x1024, .f32⟩ : BufTy).Contents (Elt Ideal)) (b : Fin 256) : Fin 150 → Fin 1024 → EReal := fun r k => x0 (ix3 b r k)

/-- The sentence, as word-by-coordinate reals. -/
abbrev words (x1 : (⟨S1x40x1024, .f32⟩ : BufTy).Contents (Elt Ideal)) : Fin 40 → Fin 1024 → EReal := fun w k => x1 (ix3 0 w k)

namespace Attend

/-! ### The sentence copies and the first batched product -/

/-- The sentence copied to every image: copy b, word w, coordinate k is the sentence's word w at k. -/
theorem copy_apply (x1 : (⟨S1x40x1024, .f32⟩ : BufTy).Contents (Elt Ideal)) (b : Fin 256) (w : Fin 40) (k : Fin 1024) :
    val_main_v0 (F := Ideal) x1 (ix3 b w k) = words x1 w k := by
  rw [val_main_v0_apply]
  exact congrArg x1 (funext fun a => Fin.ext (by match a with | ⟨0, _⟩ => rfl | ⟨1, _⟩ => rfl | ⟨2, _⟩ => rfl))

/-- The first batched product at image b, region r, word w: the inner product over the coordinates. -/
theorem num_apply (x0 : (⟨S256x150x1024, .f32⟩ : BufTy).Contents (Elt Ideal)) (x1 : (⟨S1x40x1024, .f32⟩ : BufTy).Contents (Elt Ideal)) (b : Fin 256) (r : Fin 150) (w : Fin 40) :
    val_main_v1 (F := Ideal) x0 x1 (ix3 b r w) = dotp (img x0 b r) (words x1 w) := by
  rw [val_main_v1_apply]
  unfold dotp
  refine Finset.sum_congr rfl fun k _ => ?_
  have el : lidx_main_v1 (ix3 b r w) k = ix3 b r k := funext fun a => Fin.ext (by match a with | ⟨0, _⟩ => rfl | ⟨1, _⟩ => rfl | ⟨2, _⟩ => rfl)
  have er : ridx_main_v1 (ix3 b r w) k = ix3 b w k := funext fun a => Fin.ext (by match a with | ⟨0, _⟩ => rfl | ⟨1, _⟩ => rfl | ⟨2, _⟩ => rfl)
  rw [el, er, copy_apply]

end Attend

/-- The reference's region norm is the Euclidean norm of the region's vector. -/
theorem ref_nrm (x0 : (⟨S256x150x1024, .f32⟩ : BufTy).Contents (Elt Ideal)) (b : Fin 256) (r : Fin 150) :
    val_main_v2 (F := Ideal) x0 (ix2 b r) = nrm (img x0 b r) := by
  rw [val_main_v2_apply, val_main_call0_v1_apply]
  show Ideal.sqrt (Ideal.ofBits .f32 0x00000000#32 + ∑ k : Fin 1024, val_main_call0_v0 (F := Ideal) x0 (idx_main_call0_v1 (ix2 b r) k)) = _
  rw [Ideal.ofBits_zero_f32, zero_add]
  unfold nrm dotp
  refine congrArg Ideal.sqrt (Finset.sum_congr rfl fun k _ => ?_)
  have e : idx_main_call0_v1 (ix2 b r) k = ix3 b r k := funext fun a => Fin.ext (by match a with | ⟨0, _⟩ => rfl | ⟨1, _⟩ => rfl | ⟨2, _⟩ => rfl)
  rw [e]
  rfl

namespace Attend

/-! ### The norms, spread to every (region, word) pair, and the scores -/

/-- The norm of word w, per copy. -/
theorem wordNorm_apply (x1 : (⟨S1x40x1024, .f32⟩ : BufTy).Contents (Elt Ideal)) (b : Fin 256) (w : Fin 40) :
    val_main_v3 (F := Ideal) x1 (ix2 b w) = nrm (words x1 w) := by
  rw [val_main_v3_apply, val_main_call1_v1_apply]
  show Ideal.sqrt (Ideal.ofBits .f32 0x00000000#32 + ∑ k : Fin 1024, val_main_call1_v0 (F := Ideal) x1 (idx_main_call1_v1 (ix2 b w) k)) = _
  rw [Ideal.ofBits_zero_f32, zero_add]
  unfold nrm dotp
  refine congrArg Ideal.sqrt (Finset.sum_congr rfl fun k _ => ?_)
  have e : idx_main_call1_v1 (ix2 b w) k = ix3 b w k := funext fun a => Fin.ext (by match a with | ⟨0, _⟩ => rfl | ⟨1, _⟩ => rfl | ⟨2, _⟩ => rfl)
  rw [e, val_main_call1_v0_apply, copy_apply]
  rfl

/-- The region norms spread along the words. -/
theorem regionNormCol_apply (x0 : (⟨S256x150x1024, .f32⟩ : BufTy).Contents (Elt Ideal)) (b : Fin 256) (r : Fin 150) (w : Fin 40) :
    val_main_v6 (F := Ideal) x0 (ix3 b r w) = nrm (img x0 b r) := by
  rw [val_main_v6_apply, val_main_v4_apply]
  have e : idx_main_v4 (idx_main_v6 (ix3 b r w)) = ix2 b r := funext fun a => Fin.ext (by match a with | ⟨0, _⟩ => rfl | ⟨1, _⟩ => rfl)
  rw [e, ref_nrm]

/-- The word norms spread along the regions. -/
theorem wordNormRow_apply (x1 : (⟨S1x40x1024, .f32⟩ : BufTy).Contents (Elt Ideal)) (b : Fin 256) (r : Fin 150) (w : Fin 40) :
    val_main_v7 (F := Ideal) x1 (ix3 b r w) = nrm (words x1 w) := by
  rw [val_main_v7_apply, val_main_v5_apply]
  have e : idx_main_v5 (idx_main_v7 (ix3 b r w)) = ix2 b w := funext fun a => Fin.ext (by match a with | ⟨0, _⟩ => rfl | ⟨1, _⟩ => rfl)
  rw [e, wordNorm_apply]

/-- The quotient is the cosine score of region r against word w. -/
theorem score_apply (x0 : (⟨S256x150x1024, .f32⟩ : BufTy).Contents (Elt Ideal)) (x1 : (⟨S1x40x1024, .f32⟩ : BufTy).Contents (Elt Ideal)) (b : Fin 256) (r : Fin 150) (w : Fin 40) :
    val_main_v11 (F := Ideal) x0 x1 (ix3 b r w) = score (img x0 b) (words x1) r w := by
  rw [val_main_v11_apply, val_main_v10_apply, val_main_v8_apply, val_main_v9_apply, num_apply, regionNormCol_apply,
    wordNormRow_apply]
  rfl

/-! ### The softmax over the words -/

/-- The reduction by maximum along the words: the fold of max from minus infinity over the scores of region r. -/
theorem rowFold_apply (x0 : (⟨S256x150x1024, .f32⟩ : BufTy).Contents (Elt Ideal)) (x1 : (⟨S1x40x1024, .f32⟩ : BufTy).Contents (Elt Ideal)) (b : Fin 256) (r : Fin 150) :
    val_main_v12 (F := Ideal) x0 x1 (ix2 b r)
      = (Finset.univ : Finset (Fin 40)).fold max ninf (score (img x0 b) (words x1) r) := by
  have hR : S256x150x40.Reduces [2] S256x150 := by decide
  unfold val_main_v12
  refine (Host.reduce_eq_fold_single _ _ _ reducesTo_S256x150x40_S256x150_d2 hR h_S_ (ix2 b r)).trans ?_
  have hf : (val_main_v11 (F := Ideal) x0 x1 ∘ hR.lift (ix2 b r)) = score (img x0 b) (words x1) r := by
    funext w
    refine Eq.trans ?_ (score_apply x0 x1 b r w)
    exact congrArg (val_main_v11 (F := Ideal) x0 x1) (funext fun a => Fin.ext (by match a with | ⟨0, _⟩ => rfl | ⟨1, _⟩ => rfl | ⟨2, _⟩ => rfl))
  rw [hf]
  rfl

/-- The largest score of region r. -/
theorem smax_apply (x0 : (⟨S256x150x1024, .f32⟩ : BufTy).Contents (Elt Ideal)) (x1 : (⟨S1x40x1024, .f32⟩ : BufTy).Contents (Elt Ideal)) (b : Fin 256) (r : Fin 150) :
    val_main_v14 (F := Ideal) x0 x1 (ix2 b r) = smax (img x0 b) (words x1) r := by
  rw [val_main_v14_apply, val_main_v13_apply, rowFold_apply]
  rfl

/-- The exponential of the shifted score. -/
theorem ex_apply (x0 : (⟨S256x150x1024, .f32⟩ : BufTy).Contents (Elt Ideal)) (x1 : (⟨S1x40x1024, .f32⟩ : BufTy).Contents (Elt Ideal)) (b : Fin 256) (r : Fin 150) (w : Fin 40) :
    val_main_v18 (F := Ideal) x0 x1 (ix3 b r w) = ex (img x0 b) (words x1) r w := by
  rw [val_main_v18_apply, val_main_v17_apply, score_apply, val_main_v16_apply, val_main_v15_apply]
  have e : idx_main_v15 (idx_main_v16 (ix3 b r w)) = ix2 b r := funext fun a => Fin.ext (by match a with | ⟨0, _⟩ => rfl | ⟨1, _⟩ => rfl)
  rw [e, smax_apply]
  rfl

/-- The sum of the exponentials of region r over the words. -/
theorem exSum_apply (x0 : (⟨S256x150x1024, .f32⟩ : BufTy).Contents (Elt Ideal)) (x1 : (⟨S1x40x1024, .f32⟩ : BufTy).Contents (Elt Ideal)) (b : Fin 256) (r : Fin 150) :
    val_main_v19 (F := Ideal) x0 x1 (ix2 b r) = ∑ w : Fin 40, ex (img x0 b) (words x1) r w := by
  rw [val_main_v19_apply]
  show Ideal.ofBits .f32 0x00000000#32 + ∑ w : Fin 40, val_main_v18 (F := Ideal) x0 x1 (idx_main_v19 (ix2 b r) w) = _
  rw [Ideal.ofBits_zero_f32, zero_add]
  refine Finset.sum_congr rfl fun w _ => ?_
  have e : idx_main_v19 (ix2 b r) w = ix3 b r w := funext fun a => Fin.ext (by match a with | ⟨0, _⟩ => rfl | ⟨1, _⟩ => rfl | ⟨2, _⟩ => rfl)
  rw [e, ex_apply]

/-- The softmax weight of word w for region r. -/
theorem attn_apply (x0 : (⟨S256x150x1024, .f32⟩ : BufTy).Contents (Elt Ideal)) (x1 : (⟨S1x40x1024, .f32⟩ : BufTy).Contents (Elt Ideal)) (b : Fin 256) (r : Fin 150) (w : Fin 40) :
    val_main_v22 (F := Ideal) x0 x1 (ix3 b r w) = attn (img x0 b) (words x1) r w := by
  rw [val_main_v22_apply, ex_apply, val_main_v21_apply, val_main_v20_apply]
  have e : idx_main_v20 (idx_main_v21 (ix3 b r w)) = ix2 b r := funext fun a => Fin.ext (by match a with | ⟨0, _⟩ => rfl | ⟨1, _⟩ => rfl)
  rw [e, exSum_apply]
  rfl

end Attend

open Attend in
/-- The reference's second batched product is the attended sentence vector. -/
theorem ref_sent (x0 : (⟨S256x150x1024, .f32⟩ : BufTy).Contents (Elt Ideal)) (x1 : (⟨S1x40x1024, .f32⟩ : BufTy).Contents (Elt Ideal)) (b : Fin 256) (r : Fin 150) (k : Fin 1024) :
    val_main_v23 (F := Ideal) x0 x1 (ix3 b r k) = sent (img x0 b) (words x1) r k := by
  rw [val_main_v23_apply]
  unfold sent
  refine Finset.sum_congr rfl fun w _ => ?_
  have el : lidx_main_v23 (ix3 b r k) w = ix3 b r w := funext fun a => Fin.ext (by match a with | ⟨0, _⟩ => rfl | ⟨1, _⟩ => rfl | ⟨2, _⟩ => rfl)
  have er : ridx_main_v23 (ix3 b r k) w = ix3 b w k := funext fun a => Fin.ext (by match a with | ⟨0, _⟩ => rfl | ⟨1, _⟩ => rfl | ⟨2, _⟩ => rfl)
  rw [el, er, attn_apply, copy_apply]

end Cert.ReferenceIdeal.RefValue

end
-- ==== Proof.RefScore.lean ====
/-
  The reference's pooled summand: the array `%33` at image b, region r is `exp (6 · cos)` of the region against its
  attended sentence vector.
-/
import proofs.«111422_j84061099917852_1_alg».proof.Proof.RefAttend

noncomputable section

namespace Cert.ReferenceIdeal.RefValue

open Cert.ReferenceIdeal Cert.ReferenceIdeal.Gen Idealize.ShloMosaic Idealize.ShloMosaic.ValueIdx Cert.SegPool
open Cert.ReferenceIdeal.ReadP

namespace Score

/-- The inner product of region r with its attended sentence vector. -/
theorem dotSent_apply (x0 : (⟨S256x150x1024, .f32⟩ : BufTy).Contents (Elt Ideal)) (x1 : (⟨S1x40x1024, .f32⟩ : BufTy).Contents (Elt Ideal)) (b : Fin 256) (r : Fin 150) :
    val_main_v25 (F := Ideal) x0 x1 (ix2 b r) = dotp (img x0 b r) (sent (img x0 b) (words x1) r) := by
  rw [val_main_v25_apply]
  show Ideal.ofBits .f32 0x00000000#32 + ∑ k : Fin 1024, val_main_v24 (F := Ideal) x0 x1 (idx_main_v25 (ix2 b r) k) = _
  rw [Ideal.ofBits_zero_f32, zero_add]
  unfold dotp
  refine Finset.sum_congr rfl fun k _ => ?_
  have e : idx_main_v25 (ix2 b r) k = ix3 b r k := funext fun a => Fin.ext (by match a with | ⟨0, _⟩ => rfl | ⟨1, _⟩ => rfl | ⟨2, _⟩ => rfl)
  rw [e, val_main_v24_apply, ref_sent]
  rfl

/-- The norm of the attended sentence vector of region r. -/
theorem sentNorm_apply (x0 : (⟨S256x150x1024, .f32⟩ : BufTy).Contents (Elt Ideal)) (x1 : (⟨S1x40x1024, .f32⟩ : BufTy).Contents (Elt Ideal)) (b : Fin 256) (r : Fin 150) :
    val_main_v26 (F := Ideal) x0 x1 (ix2 b r) = nrm (sent (img x0 b) (words x1) r) := by
  rw [val_main_v26_apply, val_main_call2_v1_apply]
  show Ideal.sqrt (Ideal.ofBits .f32 0x00000000#32 + ∑ k : Fin 1024, val_main_call2_v0 (F := Ideal) x0 x1 (idx_main_call2_v1 (ix2 b r) k)) = _
  rw [Ideal.ofBits_zero_f32, zero_add]
  unfold nrm dotp
  refine congrArg Ideal.sqrt (Finset.sum_congr rfl fun k _ => ?_)
  have e : idx_main_call2_v1 (ix2 b r) k = ix3 b r k := funext fun a => Fin.ext (by match a with | ⟨0, _⟩ => rfl | ⟨1, _⟩ => rfl | ⟨2, _⟩ => rfl)
  rw [e, val_main_call2_v0_apply, ref_sent]
  rfl

end Score

open Score in
/-- `%33` at (b, r) is the specification's pooled summand of region r of image b. -/
theorem ref_es (x0 : (⟨S256x150x1024, .f32⟩ : BufTy).Contents (Elt Ideal)) (x1 : (⟨S1x40x1024, .f32⟩ : BufTy).Contents (Elt Ideal)) (b : Fin 256) (r : Fin 150) :
    val_main_v33 (F := Ideal) x0 x1 (ix2 b r) = es (img x0 b) (words x1) r := by
  rw [val_main_v33_apply, val_main_v32_apply, val_main_v30_apply, val_main_v29_apply, val_main_v27_apply, val_main_v28_apply,
    val_main_v31_apply, dotSent_apply, ref_nrm, sentNorm_apply]
  rfl

end Cert.ReferenceIdeal.RefValue

end
-- ==== Proof.RefPool.lean ====
/-
  The reference's result at image b, segment s.

  Column s of the result is one of 21 poolings: a slice of consecutive regions of `%33`, their sum, its logarithm,
  over 6; the columns are laid side by side by three concatenations.  Each pooling's window sum is the sum over all
  150 regions of the summand cut off outside the segment, which is how the specification writes it.
-/
import proofs.«111422_j84061099917852_1_alg».proof.Proof.RefScore
import proofs.«111422_j84061099917852_1_alg».proof.Proof.PoolLaws

noncomputable section

namespace Cert.ReferenceIdeal.RefValue

open Cert.ReferenceIdeal Cert.ReferenceIdeal.Gen Idealize.ShloMosaic Idealize.ShloMosaic.ValueIdx Cert.SegPool
open Cert.ReferenceIdeal.ReadP

namespace Pool

/-- The pooling of the regions lo ≤ r < hi: the logarithm, over 6, of the sum of their summands. -/
def win (x : Fin 150 → Fin 1024 → EReal) (d : Fin 40 → Fin 1024 → EReal) (lo hi : Nat) : EReal :=
  Ideal.div (Ideal.log (∑ r : Fin 150, if lo ≤ r.val ∧ r.val < hi then es x d r else 0)) six

/-- The specification's pooling of segment s is the pooling of its range of regions. -/
theorem pooled_eq_win (x : Fin 150 → Fin 1024 → EReal) (d : Fin 40 → Fin 1024 → EReal) (s : Fin 21) :
    pooled x d s = win x d (segLo s) (segHi s) := rfl

/-- A sum from zero over a window of len consecutive regions starting at lo, its logarithm over 6, is the pooling
    of that range. -/
theorem pool_close (x : Fin 150 → Fin 1024 → EReal) (d : Fin 40 → Fin 1024 → EReal) (lo len : Nat) (h : lo + len ≤ 150)
    (T : Fin len → EReal) (hT : ∀ k : Fin len, T k = es x d ⟨lo + k.val, by have := k.isLt; omega⟩) :
    Ideal.div (Ideal.log (Ideal.ofBits .f32 0x00000000#32 + ∑ k : Fin len, T k)) six = win x d lo (lo + len) := by
  unfold win
  refine congrArg (fun t => Ideal.div (Ideal.log t) six) ?_
  rw [Ideal.ofBits_zero_f32, zero_add]
  exact (Finset.sum_congr rfl fun k _ => hT k).trans (sum_window (es x d) lo len h)

/-- An index of the 256 × 150 array is (b, r) once its two coordinates are b and r. -/
theorem idx_eq (b : Fin 256) (j : S256x150.Idx) (r : Fin 150) (h0 : (j 0).val = b.val) (h1 : (j 1).val = r.val) :
    j = ix2 b r :=
  funext fun a => Fin.ext (by
    match a with
    | ⟨0, _⟩ => exact h0
    | ⟨1, _⟩ => exact h1)

/-- The one entry of row b of a single-column array. -/
abbrev at0 (b : Fin 256) : S256x1.Idx := ix2 b (⟨0, Nat.one_pos⟩ : Fin 1)

/-- Two arrays side by side, 16 columns then 5: a column of the first 16 is the first array's. -/
theorem cat_left (y₁ : (⟨S256x16, .f32⟩ : BufTy).Contents (Elt Ideal)) (y₂ : (⟨S256x5, .f32⟩ : BufTy).Contents (Elt Ideal))
    (b : Fin 256) (c : Nat) (hc : c < 16) :
    concatenate S256x21 1 [⟨S256x16, y₁⟩, ⟨S256x5, y₂⟩] Facts₀.concatenates_S256x16_S256x5_S256x21_d1
        (ix2 b (⟨c, by omega⟩ : Fin 21))
      = y₁ (ix2 b (⟨c, hc⟩ : Fin 16)) :=
  concatenate_pair_apply_left (t := S256x21) (s₁ := S256x16) (s₂ := S256x5) 1 y₁ y₂ _ (ix2 b (⟨c, by omega⟩ : Fin 21)) rfl
    (ix2 b (⟨c, hc⟩ : Fin 16)) (fun a => match a with
      | ⟨0, _⟩ => rfl
      | ⟨1, _⟩ => rfl)

/-- … and a column of the last 5 is the second array's, 16 columns to the left. -/
theorem cat_right (y₁ : (⟨S256x16, .f32⟩ : BufTy).Contents (Elt Ideal)) (y₂ : (⟨S256x5, .f32⟩ : BufTy).Contents (Elt Ideal))
    (b : Fin 256) (c : Nat) (hc : c < 5) :
    concatenate S256x21 1 [⟨S256x16, y₁⟩, ⟨S256x5, y₂⟩] Facts₀.concatenates_S256x16_S256x5_S256x21_d1
        (ix2 b (⟨16 + c, by omega⟩ : Fin 21))
      = y₂ (ix2 b (⟨c, hc⟩ : Fin 5)) :=
  concatenate_pair_apply_right (t := S256x21) (s₁ := S256x16) (s₂ := S256x5) 1 y₁ y₂ _ (ix2 b (⟨16 + c, by omega⟩ : Fin 21))
    rfl rfl (ix2 b (⟨c, hc⟩ : Fin 5)) (fun a => match a with
      | ⟨0, _⟩ => fun _ => rfl
      | ⟨1, _⟩ => fun h => absurd rfl h) (Nat.add_comm c 16)

/-- Single columns side by side: column k of the result is the k-th of them (the k columns before it are one wide
    each). -/
theorem cat_piece {N : Nat} (xs : List ((s : Shape) × (s.Idx → Elt Ideal (.f32 : EltTy))))
    (h : Shape.Concatenates (xs.map (·.1)) (⟨2, ![256, N]⟩ : Shape) 1) (b : Fin 256) (k : Nat) (hkN : k < N)
    (hk : k < xs.length) (x₁ : (⟨S256x1, .f32⟩ : BufTy).Contents (Elt Ideal)) (hxk : xs[k] = ⟨S256x1, x₁⟩)
    (hpre : (((xs.take k).map (·.1)).map fun s =>
      if h : s.rank = (⟨2, ![256, N]⟩ : Shape).rank then s.size ((1 : Fin (⟨2, ![256, N]⟩ : Shape).rank).cast h.symm) else 0).sum = k) :
    concatenate (⟨2, ![256, N]⟩ : Shape) 1 xs h (ix2 b (⟨k, hkN⟩ : Fin N)) = x₁ (at0 b) :=
  concatenate_apply_piece (t := (⟨2, ![256, N]⟩ : Shape)) 1 xs h (ix2 b (⟨k, hkN⟩ : Fin N)) k hk S256x1 x₁ hxk rfl k hpre
    (at0 b) (fun a => match a with
      | ⟨0, _⟩ => fun _ => rfl
      | ⟨1, _⟩ => fun h => absurd rfl h) rfl

variable (x0 : (⟨S256x150x1024, .f32⟩ : BufTy).Contents (Elt Ideal)) (x1 : (⟨S1x40x1024, .f32⟩ : BufTy).Contents (Elt Ideal))
  (b : Fin 256)

/-! ### The 21 poolings, each at its one column -/

/-- Column 0: regions 0 to 24. -/
theorem col0 : val_main_v39 (F := Ideal) x0 x1 (at0 b) = win (img x0 b) (words x1) 0 25 := by
  rw [val_main_v39_apply, val_main_v37_apply, val_main_v36_apply, val_main_v35_apply, val_main_v38_apply]
  refine pool_close (img x0 b) (words x1) 0 25 (by omega) _ fun k => ?_
  rw [val_main_v34_apply]
  exact (congrArg (val_main_v33 (F := Ideal) x0 x1) (idx_eq b _ _ rfl (Nat.zero_add _).symm)).trans
    (ref_es x0 x1 b ⟨0 + k.val, by have := k.isLt; omega⟩)

/-- Column 1: regions 0 to 49. -/
theorem col1 : val_main_v45 (F := Ideal) x0 x1 (at0 b) = win (img x0 b) (words x1) 0 50 := by
  rw [val_main_v45_apply, val_main_v43_apply, val_main_v42_apply, val_main_v41_apply, val_main_v44_apply]
  refine pool_close (img x0 b) (words x1) 0 50 (by omega) _ fun k => ?_
  rw [val_main_v40_apply]
  exact (congrArg (val_main_v33 (F := Ideal) x0 x1) (idx_eq b _ _ rfl (Nat.zero_add _).symm)).trans
    (ref_es x0 x1 b ⟨0 + k.val, by have := k.isLt; omega⟩)

/-- Column 2: regions 0 to 74. -/
theorem col2 : val_main_v51 (F := Ideal) x0 x1 (at0 b) = win (img x0 b) (words x1) 0 75 := by
  rw [val_main_v51_apply, val_main_v49_apply, val_main_v48_apply, val_main_v47_apply, val_main_v50_apply]
  refine pool_close (img x0 b) (words x1) 0 75 (by omega) _ fun k => ?_
  rw [val_main_v46_apply]
  exact (congrArg (val_main_v33 (F := Ideal) x0 x1) (idx_eq b _ _ rfl (Nat.zero_add _).symm)).trans
    (ref_es x0 x1 b ⟨0 + k.val, by have := k.isLt; omega⟩)

/-- Column 3: regions 0 to 99. -/
theorem col3 : val_main_v57 (F := Ideal) x0 x1 (at0 b) = win (img x0 b) (words x1) 0 100 := by
  rw [val_main_v57_apply, val_main_v55_apply, val_main_v54_apply, val_main_v53_apply, val_main_v56_apply]
  refine pool_close (img x0 b) (words x1) 0 100 (by omega) _ fun k => ?_
  rw [val_main_v52_apply]
  exact (congrArg (val_main_v33 (F := Ideal) x0 x1) (idx_eq b _ _ rfl (Nat.zero_add _).symm)).trans
    (ref_es x0 x1 b ⟨0 + k.val, by have := k.isLt; omega⟩)

/-- Column 4: regions 0 to 124. -/
theorem col4 : val_main_v63 (F := Ideal) x0 x1 (at0 b) = win (img x0 b) (words x1) 0 125 := by
  rw [val_main_v63_apply, val_main_v61_apply, val_main_v60_apply, val_main_v59_apply, val_main_v62_apply]
  refine pool_close (img x0 b) (words x1) 0 125 (by omega) _ fun k => ?_
  rw [val_main_v58_apply]
  exact (congrArg (val_main_v33 (F := Ideal) x0 x1) (idx_eq b _ _ rfl (Nat.zero_add _).symm)).trans
    (ref_es x0 x1 b ⟨0 + k.val, by have := k.isLt; omega⟩)

/-- Column 5: all 150 regions, summed without a slice. -/
theorem col5 : val_main_v68 (F := Ideal) x0 x1 (at0 b) = win (img x0 b) (words x1) 0 150 := by
  rw [val_main_v68_apply, val_main_v66_apply, val_main_v65_apply, val_main_v64_apply, val_main_v67_apply]
  refine pool_close (img x0 b) (words x1) 0 150 (by omega) _ fun k => ?_
  exact (congrArg (val_main_v33 (F := Ideal) x0 x1) (idx_eq b _ _ rfl (Nat.zero_add _).symm)).trans
    (ref_es x0 x1 b ⟨0 + k.val, by have := k.isLt; omega⟩)

/-- Column 6: regions 25 to 49. -/
theorem col6 : val_main_v74 (F := Ideal) x0 x1 (at0 b) = win (img x0 b) (words x1) 25 50 := by
  rw [val_main_v74_apply, val_main_v72_apply, val_main_v71_apply, val_main_v70_apply, val_main_v73_apply]
  refine pool_close (img x0 b) (words x1) 25 25 (by omega) _ fun k => ?_
  rw [val_main_v69_apply]
  exact (congrArg (val_main_v33 (F := Ideal) x0 x1) (idx_eq b _ _ rfl rfl)).trans
    (ref_es x0 x1 b ⟨25 + k.val, by have := k.isLt; omega⟩)

/-- Column 7: regions 25 to 74. -/
theorem col7 : val_main_v80 (F := Ideal) x0 x1 (at0 b) = win (img x0 b) (words x1) 25 75 := by
  rw [val_main_v80_apply, val_main_v78_apply, val_main_v77_apply, val_main_v76_apply, val_main_v79_apply]
  refine pool_close (img x0 b) (words x1) 25 50 (by omega) _ fun k => ?_
  rw [val_main_v75_apply]
  exact (congrArg (val_main_v33 (F := Ideal) x0 x1) (idx_eq b _ _ rfl rfl)).trans
    (ref_es x0 x1 b ⟨25 + k.val, by have := k.isLt; omega⟩)

/-- Column 8: regions 25 to 99. -/
theorem col8 : val_main_v86 (F := Ideal) x0 x1 (at0 b) = win (img x0 b) (words x1) 25 100 := by
  rw [val_main_v86_apply, val_main_v84_apply, val_main_v83_apply, val_main_v82_apply, val_main_v85_apply]
  refine pool_close (img x0 b) (words x1) 25 75 (by omega) _ fun k => ?_
  rw [val_main_v81_apply]
  exact (congrArg (val_main_v33 (F := Ideal) x0 x1) (idx_eq b _ _ rfl rfl)).trans
    (ref_es x0 x1 b ⟨25 + k.val, by have := k.isLt; omega⟩)

/-- Column 9: regions 25 to 124. -/
theorem col9 : val_main_v92 (F := Ideal) x0 x1 (at0 b) = win (img x0 b) (words x1) 25 125 := by
  rw [val_main_v92_apply, val_main_v90_apply, val_main_v89_apply, val_main_v88_apply, val_main_v91_apply]
  refine pool_close (img x0 b) (words x1) 25 100 (by omega) _ fun k => ?_
  rw [val_main_v87_apply]
  exact (congrArg (val_main_v33 (F := Ideal) x0 x1) (idx_eq b _ _ rfl rfl)).trans
    (ref_es x0 x1 b ⟨25 + k.val, by have := k.isLt; omega⟩)

/-- Column 10: regions 25 to 149. -/
theorem col10 : val_main_v98 (F := Ideal) x0 x1 (at0 b) = win (img x0 b) (words x1) 25 150 := by
  rw [val_main_v98_apply, val_main_v96_apply, val_main_v95_apply, val_main_v94_apply, val_main_v97_apply]
  refine pool_close (img x0 b) (words x1) 25 125 (by omega) _ fun k => ?_
  rw [val_main_v93_apply]
  exact (congrArg (val_main_v33 (F := Ideal) x0 x1) (idx_eq b _ _ rfl rfl)).trans
    (ref_es x0 x1 b ⟨25 + k.val, by have := k.isLt; omega⟩)

/-- Column 11: regions 50 to 74. -/
theorem col11 : val_main_v104 (F := Ideal) x0 x1 (at0 b) = win (img x0 b) (words x1) 50 75 := by
  rw [val_main_v104_apply, val_main_v102_apply, val_main_v101_apply, val_main_v100_apply, val_main_v103_apply]
  refine pool_close (img x0 b) (words x1) 50 25 (by omega) _ fun k => ?_
  rw [val_main_v99_apply]
  exact (congrArg (val_main_v33 (F := Ideal) x0 x1) (idx_eq b _ _ rfl rfl)).trans
    (ref_es x0 x1 b ⟨50 + k.val, by have := k.isLt; omega⟩)

/-- Column 12: regions 50 to 99. -/
theorem col12 : val_main_v110 (F := Ideal) x0 x1 (at0 b) = win (img x0 b) (words x1) 50 100 := by
  rw [val_main_v110_apply, val_main_v108_apply, val_main_v107_apply, val_main_v106_apply, val_main_v109_apply]
  refine pool_close (img x0 b) (words x1) 50 50 (by omega) _ fun k => ?_
  rw [val_main_v105_apply]
  exact (congrArg (val_main_v33 (F := Ideal) x0 x1) (idx_eq b _ _ rfl rfl)).trans
    (ref_es x0 x1 b ⟨50 + k.val, by have := k.isLt; omega⟩)

/-- Column 13: regions 50 to 124. -/
theorem col13 : val_main_v116 (F := Ideal) x0 x1 (at0 b) = win (img x0 b) (words x1) 50 125 := by
  rw [val_main_v116_apply, val_main_v114_apply, val_main_v113_apply, val_main_v112_apply, val_main_v115_apply]
  refine pool_close (img x0 b) (words x1) 50 75 (by omega) _ fun k => ?_
  rw [val_main_v111_apply]
  exact (congrArg (val_main_v33 (F := Ideal) x0 x1) (idx_eq b _ _ rfl rfl)).trans
    (ref_es x0 x1 b ⟨50 + k.val, by have := k.isLt; omega⟩)

/-- Column 14: regions 50 to 149. -/
theorem col14 : val_main_v122 (F := Ideal) x0 x1 (at0 b) = win (img x0 b) (words x1) 50 150 := by
  rw [val_main_v122_apply, val_main_v120_apply, val_main_v119_apply, val_main_v118_apply, val_main_v121_apply]
  refine pool_close (img x0 b) (words x1) 50 100 (by omega) _ fun k => ?_
  rw [val_main_v117_apply]
  exact (congrArg (val_main_v33 (F := Ideal) x0 x1) (idx_eq b _ _ rfl rfl)).trans
    (ref_es x0 x1 b ⟨50 + k.val, by have := k.isLt; omega⟩)

/-- Column 15: regions 75 to 99. -/
theorem col15 : val_main_v128 (F := Ideal) x0 x1 (at0 b) = win (img x0 b) (words x1) 75 100 := by
  rw [val_main_v128_apply, val_main_v126_apply, val_main_v125_apply, val_main_v124_apply, val_main_v127_apply]
  refine pool_close (img x0 b) (words x1) 75 25 (by omega) _ fun k => ?_
  rw [val_main_v123_apply]
  exact (congrArg (val_main_v33 (F := Ideal) x0 x1) (idx_eq b _ _ rfl rfl)).trans
    (ref_es x0 x1 b ⟨75 + k.val, by have := k.isLt; omega⟩)

/-- Column 16: regions 75 to 124. -/
theorem col16 : val_main_v134 (F := Ideal) x0 x1 (at0 b) = win (img x0 b) (words x1) 75 125 := by
  rw [val_main_v134_apply, val_main_v132_apply, val_main_v131_apply, val_main_v130_apply, val_main_v133_apply]
  refine pool_close (img x0 b) (words x1) 75 50 (by omega) _ fun k => ?_
  rw [val_main_v129_apply]
  exact (congrArg (val_main_v33 (F := Ideal) x0 x1) (idx_eq b _ _ rfl rfl)).trans
    (ref_es x0 x1 b ⟨75 + k.val, by have := k.isLt; omega⟩)

/-- Column 17: regions 75 to 149. -/
theorem col17 : val_main_v140 (F := Ideal) x0 x1 (at0 b) = win (img x0 b) (words x1) 75 150 := by
  rw [val_main_v140_apply, val_main_v138_apply, val_main_v137_apply, val_main_v136_apply, val_main_v139_apply]
  refine pool_close (img x0 b) (words x1) 75 75 (by omega) _ fun k => ?_
  rw [val_main_v135_apply]
  exact (congrArg (val_main_v33 (F := Ideal) x0 x1) (idx_eq b _ _ rfl rfl)).trans
    (ref_es x0 x1 b ⟨75 + k.val, by have := k.isLt; omega⟩)

/-- Column 18: regions 100 to 124. -/
theorem col18 : val_main_v146 (F := Ideal) x0 x1 (at0 b) = win (img x0 b) (words x1) 100 125 := by
  rw [val_main_v146_apply, val_main_v144_apply, val_main_v143_apply, val_main_v142_apply, val_main_v145_apply]
  refine pool_close (img x0 b) (words x1) 100 25 (by omega) _ fun k => ?_
  rw [val_main_v141_apply]
  exact (congrArg (val_main_v33 (F := Ideal) x0 x1) (idx_eq b _ _ rfl rfl)).trans
    (ref_es x0 x1 b ⟨100 + k.val, by have := k.isLt; omega⟩)

/-- Column 19: regions 100 to 149. -/
theorem col19 : val_main_v152 (F := Ideal) x0 x1 (at0 b) = win (img x0 b) (words x1) 100 150 := by
  rw [val_main_v152_apply, val_main_v150_apply, val_main_v149_apply, val_main_v148_apply, val_main_v151_apply]
  refine pool_close (img x0 b) (words x1) 100 50 (by omega) _ fun k => ?_
  rw [val_main_v147_apply]
  exact (congrArg (val_main_v33 (F := Ideal) x0 x1) (idx_eq b _ _ rfl rfl)).trans
    (ref_es x0 x1 b ⟨100 + k.val, by have := k.isLt; omega⟩)

/-- Column 20: regions 125 to 149. -/
theorem col20 : val_main_v158 (F := Ideal) x0 x1 (at0 b) = win (img x0 b) (words x1) 125 150 := by
  rw [val_main_v158_apply, val_main_v156_apply, val_main_v155_apply, val_main_v154_apply, val_main_v157_apply]
  refine pool_close (img x0 b) (words x1) 125 25 (by omega) _ fun k => ?_
  rw [val_main_v153_apply]
  exact (congrArg (val_main_v33 (F := Ideal) x0 x1) (idx_eq b _ _ rfl rfl)).trans
    (ref_es x0 x1 b ⟨125 + k.val, by have := k.isLt; omega⟩)

/-! ### The columns laid side by side -/

/-- The first 16 columns of the result are the first concatenation's. -/
theorem v161_left (c : Nat) (hc : c < 16) :
    val_main_v161 (F := Ideal) x0 x1 (ix2 b (⟨c, by omega⟩ : Fin 21))
      = val_main_v159 (F := Ideal) x0 x1 (ix2 b (⟨c, hc⟩ : Fin 16)) := by
  unfold val_main_v161
  exact cat_left _ _ b c hc

/-- The last 5 columns of the result are the second concatenation's. -/
theorem v161_right (c : Nat) (hc : c < 5) :
    val_main_v161 (F := Ideal) x0 x1 (ix2 b (⟨16 + c, by omega⟩ : Fin 21))
      = val_main_v160 (F := Ideal) x0 x1 (ix2 b (⟨c, hc⟩ : Fin 5)) := by
  unfold val_main_v161
  exact cat_right _ _ b c hc

theorem piece0 : val_main_v159 (F := Ideal) x0 x1 (ix2 b (⟨0, by omega⟩ : Fin 16)) = val_main_v39 (F := Ideal) x0 x1 (at0 b) := by
  unfold val_main_v159
  exact cat_piece _ _ b 0 (by omega) (by simp) _ rfl (by simp)
theorem piece1 : val_main_v159 (F := Ideal) x0 x1 (ix2 b (⟨1, by omega⟩ : Fin 16)) = val_main_v45 (F := Ideal) x0 x1 (at0 b) := by
  unfold val_main_v159
  exact cat_piece _ _ b 1 (by omega) (by simp) _ rfl (by simp)
theorem piece2 : val_main_v159 (F := Ideal) x0 x1 (ix2 b (⟨2, by omega⟩ : Fin 16)) = val_main_v51 (F := Ideal) x0 x1 (at0 b) := by
  unfold val_main_v159
  exact cat_piece _ _ b 2 (by omega) (by simp) _ rfl (by simp)
theorem piece3 : val_main_v159 (F := Ideal) x0 x1 (ix2 b (⟨3, by omega⟩ : Fin 16)) = val_main_v57 (F := Ideal) x0 x1 (at0 b) := by
  unfold val_main_v159
  exact cat_piece _ _ b 3 (by omega) (by simp) _ rfl (by simp)
theorem piece4 : val_main_v159 (F := Ideal) x0 x1 (ix2 b (⟨4, by omega⟩ : Fin 16)) = val_main_v63 (F := Ideal) x0 x1 (at0 b) := by
  unfold val_main_v159
  exact cat_piece _ _ b 4 (by omega) (by simp) _ rfl (by simp)
theorem piece5 : val_main_v159 (F := Ideal) x0 x1 (ix2 b (⟨5, by omega⟩ : Fin 16)) = val_main_v68 (F := Ideal) x0 x1 (at0 b) := by
  unfold val_main_v159
  exact cat_piece _ _ b 5 (by omega) (by simp) _ rfl (by simp)
theorem piece6 : val_main_v159 (F := Ideal) x0 x1 (ix2 b (⟨6, by omega⟩ : Fin 16)) = val_main_v74 (F := Ideal) x0 x1 (at0 b) := by
  unfold val_main_v159
  exact cat_piece _ _ b 6 (by omega) (by simp) _ rfl (by simp)
theorem piece7 : val_main_v159 (F := Ideal) x0 x1 (ix2 b (⟨7, by omega⟩ : Fin 16)) = val_main_v80 (F := Ideal) x0 x1 (at0 b) := by
  unfold val_main_v159
  exact cat_piece _ _ b 7 (by omega) (by simp) _ rfl (by simp)
theorem piece8 : val_main_v159 (F := Ideal) x0 x1 (ix2 b (⟨8, by omega⟩ : Fin 16)) = val_main_v86 (F := Ideal) x0 x1 (at0 b) := by
  unfold val_main_v159
  exact cat_piece _ _ b 8 (by omega) (by simp) _ rfl (by simp)
theorem piece9 : val_main_v159 (F := Ideal) x0 x1 (ix2 b (⟨9, by omega⟩ : Fin 16)) = val_main_v92 (F := Ideal) x0 x1 (at0 b) := by
  unfold val_main_v159
  exact cat_piece _ _ b 9 (by omega) (by simp) _ rfl (by simp)
theorem piece10 : val_main_v159 (F := Ideal) x0 x1 (ix2 b (⟨10, by omega⟩ : Fin 16)) = val_main_v98 (F := Ideal) x0 x1 (at0 b) := by
  unfold val_main_v159
  exact cat_piece _ _ b 10 (by omega) (by simp) _ rfl (by simp)
theorem piece11 : val_main_v159 (F := Ideal) x0 x1 (ix2 b (⟨11, by omega⟩ : Fin 16)) = val_main_v104 (F := Ideal) x0 x1 (at0 b) := by
  unfold val_main_v159
  exact cat_piece _ _ b 11 (by omega) (by simp) _ rfl (by simp)
theorem piece12 : val_main_v159 (F := Ideal) x0 x1 (ix2 b (⟨12, by omega⟩ : Fin 16)) = val_main_v110 (F := Ideal) x0 x1 (at0 b) := by
  unfold val_main_v159
  exact cat_piece _ _ b 12 (by omega) (by simp) _ rfl (by simp)
theorem piece13 : val_main_v159 (F := Ideal) x0 x1 (ix2 b (⟨13, by omega⟩ : Fin 16)) = val_main_v116 (F := Ideal) x0 x1 (at0 b) := by
  unfold val_main_v159
  exact cat_piece _ _ b 13 (by omega) (by simp) _ rfl (by simp)
theorem piece14 : val_main_v159 (F := Ideal) x0 x1 (ix2 b (⟨14, by omega⟩ : Fin 16)) = val_main_v122 (F := Ideal) x0 x1 (at0 b) := by
  unfold val_main_v159
  exact cat_piece _ _ b 14 (by omega) (by simp) _ rfl (by simp)
theorem piece15 : val_main_v159 (F := Ideal) x0 x1 (ix2 b (⟨15, by omega⟩ : Fin 16)) = val_main_v128 (F := Ideal) x0 x1 (at0 b) := by
  unfold val_main_v159
  exact cat_piece _ _ b 15 (by omega) (by simp) _ rfl (by simp)
theorem piece16 : val_main_v160 (F := Ideal) x0 x1 (ix2 b (⟨0, by omega⟩ : Fin 5)) = val_main_v134 (F := Ideal) x0 x1 (at0 b) := by
  unfold val_main_v160
  exact cat_piece _ _ b 0 (by omega) (by simp) _ rfl (by simp)
theorem piece17 : val_main_v160 (F := Ideal) x0 x1 (ix2 b (⟨1, by omega⟩ : Fin 5)) = val_main_v140 (F := Ideal) x0 x1 (at0 b) := by
  unfold val_main_v160
  exact cat_piece _ _ b 1 (by omega) (by simp) _ rfl (by simp)
theorem piece18 : val_main_v160 (F := Ideal) x0 x1 (ix2 b (⟨2, by omega⟩ : Fin 5)) = val_main_v146 (F := Ideal) x0 x1 (at0 b) := by
  unfold val_main_v160
  exact cat_piece _ _ b 2 (by omega) (by simp) _ rfl (by simp)
theorem piece19 : val_main_v160 (F := Ideal) x0 x1 (ix2 b (⟨3, by omega⟩ : Fin 5)) = val_main_v152 (F := Ideal) x0 x1 (at0 b) := by
  unfold val_main_v160
  exact cat_piece _ _ b 3 (by omega) (by simp) _ rfl (by simp)
theorem piece20 : val_main_v160 (F := Ideal) x0 x1 (ix2 b (⟨4, by omega⟩ : Fin 5)) = val_main_v158 (F := Ideal) x0 x1 (at0 b) := by
  unfold val_main_v160
  exact cat_piece _ _ b 4 (by omega) (by simp) _ rfl (by simp)

end Pool

/-- The reference's result at (b, s) is the specification's pooling of segment s of image b. -/
theorem ref_pooled (x0 : (⟨S256x150x1024, .f32⟩ : BufTy).Contents (Elt Ideal)) (x1 : (⟨S1x40x1024, .f32⟩ : BufTy).Contents (Elt Ideal)) (b : Fin 256) (s : Fin 21) :
    val_main_v161 (F := Ideal) x0 x1 (ix2 b s) = pooled (img x0 b) (words x1) s := by
  match s with
  | ⟨0, _⟩ => exact (Pool.v161_left x0 x1 b 0 (by omega)).trans ((Pool.piece0 x0 x1 b).trans (Pool.col0 x0 x1 b))
  | ⟨1, _⟩ => exact (Pool.v161_left x0 x1 b 1 (by omega)).trans ((Pool.piece1 x0 x1 b).trans (Pool.col1 x0 x1 b))
  | ⟨2, _⟩ => exact (Pool.v161_left x0 x1 b 2 (by omega)).trans ((Pool.piece2 x0 x1 b).trans (Pool.col2 x0 x1 b))
  | ⟨3, _⟩ => exact (Pool.v161_left x0 x1 b 3 (by omega)).trans ((Pool.piece3 x0 x1 b).trans (Pool.col3 x0 x1 b))
  | ⟨4, _⟩ => exact (Pool.v161_left x0 x1 b 4 (by omega)).trans ((Pool.piece4 x0 x1 b).trans (Pool.col4 x0 x1 b))
  | ⟨5, _⟩ => exact (Pool.v161_left x0 x1 b 5 (by omega)).trans ((Pool.piece5 x0 x1 b).trans (Pool.col5 x0 x1 b))
  | ⟨6, _⟩ => exact (Pool.v161_left x0 x1 b 6 (by omega)).trans ((Pool.piece6 x0 x1 b).trans (Pool.col6 x0 x1 b))
  | ⟨7, _⟩ => exact (Pool.v161_left x0 x1 b 7 (by omega)).trans ((Pool.piece7 x0 x1 b).trans (Pool.col7 x0 x1 b))
  | ⟨8, _⟩ => exact (Pool.v161_left x0 x1 b 8 (by omega)).trans ((Pool.piece8 x0 x1 b).trans (Pool.col8 x0 x1 b))
  | ⟨9, _⟩ => exact (Pool.v161_left x0 x1 b 9 (by omega)).trans ((Pool.piece9 x0 x1 b).trans (Pool.col9 x0 x1 b))
  | ⟨10, _⟩ => exact (Pool.v161_left x0 x1 b 10 (by omega)).trans ((Pool.piece10 x0 x1 b).trans (Pool.col10 x0 x1 b))
  | ⟨11, _⟩ => exact (Pool.v161_left x0 x1 b 11 (by omega)).trans ((Pool.piece11 x0 x1 b).trans (Pool.col11 x0 x1 b))
  | ⟨12, _⟩ => exact (Pool.v161_left x0 x1 b 12 (by omega)).trans ((Pool.piece12 x0 x1 b).trans (Pool.col12 x0 x1 b))
  | ⟨13, _⟩ => exact (Pool.v161_left x0 x1 b 13 (by omega)).trans ((Pool.piece13 x0 x1 b).trans (Pool.col13 x0 x1 b))
  | ⟨14, _⟩ => exact (Pool.v161_left x0 x1 b 14 (by omega)).trans ((Pool.piece14 x0 x1 b).trans (Pool.col14 x0 x1 b))
  | ⟨15, _⟩ => exact (Pool.v161_left x0 x1 b 15 (by omega)).trans ((Pool.piece15 x0 x1 b).trans (Pool.col15 x0 x1 b))
  | ⟨16, _⟩ => exact (Pool.v161_right x0 x1 b 0 (by omega)).trans ((Pool.piece16 x0 x1 b).trans (Pool.col16 x0 x1 b))
  | ⟨17, _⟩ => exact (Pool.v161_right x0 x1 b 1 (by omega)).trans ((Pool.piece17 x0 x1 b).trans (Pool.col17 x0 x1 b))
  | ⟨18, _⟩ => exact (Pool.v161_right x0 x1 b 2 (by omega)).trans ((Pool.piece18 x0 x1 b).trans (Pool.col18 x0 x1 b))
  | ⟨19, _⟩ => exact (Pool.v161_right x0 x1 b 3 (by omega)).trans ((Pool.piece19 x0 x1 b).trans (Pool.col19 x0 x1 b))
  | ⟨20, _⟩ => exact (Pool.v161_right x0 x1 b 4 (by omega)).trans ((Pool.piece20 x0 x1 b).trans (Pool.col20 x0 x1 b))
  | ⟨n + 21, h⟩ => exact absurd h (by omega)

end Cert.ReferenceIdeal.RefValue

end
-- ==== Proof.lean ====
/-
  The certificate: the kernel and its reference compute the same 256 × 21 array on the extended reals.

  For every image b and segment s both programs end with the log-sum-exp pooling, at temperature 6, of the numbers
  `exp (6 · cos (region, attended sentence))` over the regions of the segment, where the attended sentence of a
  region is the softmax-weighted sum of the 40 words, the weights being the softmax of the region's cosines against
  the words (every cosine's denominator floored at 1e-6).

  * The kernel takes the images eight at a time; its matrix products on narrowed operands are the exact products
    on the extended reals, its lane sums the exact sums, and it pools by multiplying the row of 150 summands into a
    0/1 array whose column s is the indicator of segment s (Proof/MaskTable.lean).  Its result array is the function
    `G` of its two arguments (Proof/KernelFinal.lean, over Proof/KernelAttend.lean and Proof/KernelPool.lean).
  * The reference computes all 256 images at once and pools by 21 slices; read stage by stage its result is the last
    stage of its arguments (Proof/RefStages.lean), which at (b, s) is the same pooling (Proof/RefAttend.lean,
    Proof/RefScore.lean, Proof/RefPool.lean).
  * A sum against an indicator and a sum over a window of consecutive indices are both the sum of the term cut off
    outside the window (Proof/PoolLaws.lean); on the extended reals this needs only a · 1 = a and a · 0 = 0, so the
    inputs' finiteness is never used.

  The three frames are the generated frame certificates of the two kernel programs and, for the reference, its run
  with the result dropped.  No rewrite was applied when the kernel was idealized, so there is nothing to preserve.
-/
import proofs.«111422_j84061099917852_1_alg».proof.Defs
import proofs.«111422_j84061099917852_1_alg».proof.Proof.Gen.Kernel
import proofs.«111422_j84061099917852_1_alg».proof.Proof.Gen.Kernel.Skeleton
import proofs.«111422_j84061099917852_1_alg».proof.Proof.Gen.Kernel.Launch
import proofs.«111422_j84061099917852_1_alg».proof.Proof.Gen.Kernel.Points
import proofs.«111422_j84061099917852_1_alg».proof.Proof.Gen.Kernel.Frame
import proofs.«111422_j84061099917852_1_alg».proof.Proof.Gen.KernelIdeal
import proofs.«111422_j84061099917852_1_alg».proof.Proof.Gen.KernelIdeal.Skeleton
import proofs.«111422_j84061099917852_1_alg».proof.Proof.Gen.KernelIdeal.Launch
import proofs.«111422_j84061099917852_1_alg».proof.Proof.Gen.KernelIdeal.Points
import proofs.«111422_j84061099917852_1_alg».proof.Proof.Gen.KernelIdeal.Frame
import proofs.«111422_j84061099917852_1_alg».proof.Proof.Gen.ReferenceIdeal
import proofs.«111422_j84061099917852_1_alg».proof.Proof.Gen.Pre_finite_inputs
import proofs.«111422_j84061099917852_1_alg».proof.Proof.Gen.KernelIdeal.Value
import proofs.«111422_j84061099917852_1_alg».proof.Proof.KernelFinal
import proofs.«111422_j84061099917852_1_alg».proof.Proof.RefStages
import proofs.«111422_j84061099917852_1_alg».proof.Proof.RefPool
import Idealize.ShloMosaic.Adequacy
import Idealize.ShloMosaic.Init

noncomputable section

namespace Cert.Proof

open Idealize.ShloMosaic Idealize.ShloMosaic.TcCoe Idealize.SL.Sem

/-- The reference's last stage is the kernel's function of the same arguments: at (b, s) both are the pooling of
    segment s of image b. -/
theorem result_eq (x0 : (⟨Cert.ReferenceIdeal.S256x150x1024, .f32⟩ : BufTy).Contents (Elt Ideal))
    (x1 : (⟨Cert.ReferenceIdeal.S1x40x1024, .f32⟩ : BufTy).Contents (Elt Ideal)) :
    Cert.ReferenceIdeal.ReadP.val_main_v161 (F := Ideal) x0 x1 = Cert.KernelIdeal.Final.G x0 x1 := by
  funext i
  have hi : i = ValueIdx.ix2 (⟨(i 0).val, (i 0).isLt⟩ : Fin 256) (⟨(i 1).val, (i 1).isLt⟩ : Fin 21) :=
    funext fun a => by match a with | ⟨0, _⟩ => rfl | ⟨1, _⟩ => rfl
  refine (congrArg (Cert.ReferenceIdeal.ReadP.val_main_v161 (F := Ideal) x0 x1) hi).trans ?_
  exact Cert.ReferenceIdeal.RefValue.ref_pooled x0 x1 _ _

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Stages.run (F := Ideal) m ρ)

/-- Both programs run, the kernel's result at `G` of its arguments and the reference's at its last stage of arguments
    that agree with them: one array (`result_eq`). -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
